-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S3x4096x512 : Shape := ⟨3, ![3, 4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S3x4096x512 : S_.BroadcastsInDim S3x4096x512 (![] : Fin 0 → Fin S3x4096x512.rank)
  reducesTo_S3x4096x512_S_d0_1_2 : S3x4096x512.ReducesTo [0, 1, 2] S_

variable [Facts]

def fn {F : FTy → Type} [FloatOps F] (main_arg0 : FVec F S4096x512 .f32) (main_arg1 : FVec F S4096x512 .f32) (main_arg2 : FVec F S3x4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S3x4096x512 .f32 := Host.absf main_arg2
  let main_cst_2 : FVec F S_ .f32 := constant S_ .f32 0x7F800000#32
  let main_v10 : FVec F S3x4096x512 .f32 := broadcastInDim S3x4096x512 ![] bcast_S_S3x4096x512 main_cst_2
  let main_v11 : IVec S3x4096x512 1 := cmpf .olt main_v9 main_v10
  let main_c_3 : IVec S_ 1 := constantI S_ 1 1#1
  let main_v12 : IVec S_ 1 := (fun x v => Host.reduce IntOp.andi x v reducesTo_S3x4096x512_S_d0_1_2 h_S_) main_v11 main_c_3
  let main_v13 : IVec S_ 1 := andi main_v8 main_v12
  main_v13
-- ==== Kernel.lean ====
abbrev S4096x512 : Shape := ⟨2, ![4096, 512]⟩
abbrev S3x4096x512 : Shape := ⟨3, ![3, 4096, 512]⟩
abbrev S12288x512 : Shape := ⟨2, ![12288, 512]⟩
abbrev S4096x1 : Shape := ⟨2, ![4096, 1]⟩
abbrev S1024x512 : Shape := ⟨2, ![1024, 512]⟩
abbrev S512x512 : Shape := ⟨2, ![512, 512]⟩
abbrev S1024x1 : Shape := ⟨2, ![1024, 1]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S_ : Shape := ⟨0, ![]⟩

abbrev nBuf : Space → Nat
  | .hbm => 17
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S3x4096x512, .f32⟩
  | .hbm, ⟨3, _⟩ => ⟨S12288x512, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x512, .f32⟩
  | .local _ .vmem, ⟨11, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c23_i32 : BitVec 32 := 23#32
  let v51 : BitVec 1 := Scalar.cmpi .eq arg1 c23_i32
  let v52 : BitVec 32 := Scalar.extui v51
  let c0_i32_17 : BitVec 32 := 0#32
  let v53 : BitVec 1 := Scalar.cmpi .ne v52 c0_i32_17
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S3x4096x512_S12288x512 : S3x4096x512.ShapeCasts S12288x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  transposes_S512x512_p1_0_S512x512 : S512x512.Transposes [1, 0] S512x512
  iota_S1024x1_d0_w32 : S1024x1.Iotas .tc 32 [0]
  iota_S1x512_d1_w32 : S1x512.Iotas .tc 32 [1]
  broadcasts_S1x512_S1024x512 : S1x512.Broadcasts S1024x512
  bcast_S_S4096x1 : S_.BroadcastsInDim S4096x1 (![] : Fin 0 → Fin S4096x1.rank)
  reducesTo_S4096x1_S_d0_1 : S4096x1.ReducesTo [0, 1] S_
  h_S_ : 0 < S_.numel
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S12288x512.size a
  hwx0_2 : ∀ i : grid0.Coords, EltTy.bits .f32 = 32 ∨ (Rect.block (s := S12288x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond1 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S3x4096x512 : Shape := ⟨3, ![3, 4096, 512]⟩
abbrev S_ : Shape := ⟨0, ![]⟩
abbrev S4096 : Shape := ⟨1, ![4096]⟩
abbrev S4096x1 : Shape := ⟨2, ![4096, 1]⟩
abbrev S3x4096 : Shape := ⟨2, ![3, 4096]⟩
abbrev S3x4096x1 : Shape := ⟨3, ![3, 4096, 1]⟩
abbrev S4096x3x4096 : Shape := ⟨3, ![4096, 3, 4096]⟩
abbrev S4096x4096 : Shape := ⟨2, ![4096, 4096]⟩
abbrev S4096x1x4096 : Shape := ⟨3, ![4096, 1, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S3x4096x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S3x4096x512, .f32⟩
  | .hbm, ⟨24, _⟩ => ⟨S_, .f32⟩
  | .hbm, ⟨25, _⟩ => ⟨S3x4096, .f32⟩
  | .hbm, ⟨26, _⟩ => ⟨S3x4096x1, .f32⟩
  | .hbm, ⟨27, _⟩ => ⟨S3x4096x1, .f32⟩
  | .hbm, ⟨28, _⟩ => ⟨S_, .f32⟩
  | .hbm, ⟨29, _⟩ => ⟨S3x4096x1, .f32⟩
  | .hbm, ⟨30, _⟩ => ⟨S3x4096x1, .f32⟩
  | .hbm, ⟨31, _⟩ => ⟨S3x4096x512, .f32⟩
  | .hbm, ⟨32, _⟩ => ⟨S3x4096x512, .f32⟩
  | .hbm, ⟨33, _⟩ => ⟨S4096x512, .f32⟩
  | .hbm, ⟨34, _⟩ => ⟨S_, .f32⟩
  | .hbm, ⟨35, _⟩ => ⟨S4096, .f32⟩
  | .hbm, ⟨36, _⟩ => ⟨S4096x3x4096, .f32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S4096x1x4096, .i1⟩
  | .hbm, ⟨44, _⟩ => ⟨S_, .f32⟩
  | .hbm, ⟨45, _⟩ => ⟨S_, .f32⟩
  | .hbm, ⟨46, _⟩ => ⟨S4096x3x4096, .i1⟩
  | .hbm, ⟨47, _⟩ => ⟨S4096x3x4096, .f32⟩
  | .hbm, ⟨48, _⟩ => ⟨S4096x3x4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096x3x4096, .f32⟩
  | .hbm, ⟨55, _⟩ => ⟨S4096x3x4096, .f32⟩
  | .hbm, ⟨56, _⟩ => ⟨S4096x3x4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S3x4096x512_S3x4096_d2 : S3x4096x512.ReducesTo [2] S3x4096
  bcast_S3x4096_S3x4096x1_0_1 : S3x4096.BroadcastsInDim S3x4096x1 (![0, 1] : Fin 2 → Fin S3x4096x1.rank)
  bcast_S_S3x4096x1 : S_.BroadcastsInDim S3x4096x1 (![] : Fin 0 → Fin S3x4096x1.rank)
  bcast_S3x4096x1_S3x4096x512_0_1_2 : S3x4096x1.BroadcastsInDim S3x4096x512 (![0, 1, 2] : Fin 3 → Fin S3x4096x512.rank)
  bcast_S_S4096x4096 : S_.BroadcastsInDim S4096x4096 (![] : Fin 0 → Fin S4096x4096.rank)
  bcast_S4096x4096_S4096x1x4096_0_2 : S4096x4096.BroadcastsInDim S4096x1x4096 (![0, 2] : Fin 2 → Fin S4096x1x4096.rank)
  bcast_S4096x1x4096_S4096x3x4096_0_1_2 : S4096x1x4096.BroadcastsInDim S4096x3x4096 (![0, 1, 2] : Fin 3 → Fin S4096x3x4096.rank)
  bcast_S_S4096x3x4096 : S_.BroadcastsInDim S4096x3x4096 (![] : Fin 0 → Fin S4096x3x4096.rank)
  bcast_S_S4096 : S_.BroadcastsInDim S4096 (![] : Fin 0 → Fin S4096.rank)
  reducesTo_S4096x3x4096_S4096_d1_2 : S4096x3x4096.ReducesTo [1, 2] S4096
  reducesTo_S4096_S_d0 : S4096.ReducesTo [0] S_
  dot_S4096x512_S3x4096x512_S4096x3x4096_1_2_0_01_n_n_wf : DotDims.WF S4096x512 S3x4096x512 S4096x3x4096 [1] [2] [0] [0, 1] [] []

variable [Facts₀]

def dot_S4096x512_S3x4096x512_S4096x3x4096_1_2_0_01_n_n : DotDims S4096x512 S3x4096x512 S4096x3x4096 where
  lhsContracting := [1]
  rhsContracting := [2]
  lhsNonContracting := [0]
  rhsNonContracting := [0, 1]
  lhsBatch := []
  rhsBatch := []
  wf := dot_S4096x512_S3x4096x512_S4096x3x4096_1_2_0_01_n_n_wf

class Facts : Prop extends Facts₀ where

variable [Facts]
-- ==== Proof.Kernel.Data.lean ====
/-
  The pipeline's proof data for the one kernel region.

  Over a row tile i the kernel visits 24 key tiles j = 0 .. 23 (point t = 24 i + j).  Three values live across the points
  of a row tile: the positive terms of the tile's rows (written into output window 3 at j = 0 and written back to the
  array only after j = 23), the normalised anchor tile (first scratch buffer, written at j = 0) and the running sum of
  the negative terms (second scratch buffer: zeroed and first added to at j = 0, added to at every later j, copied into
  output window 4 at j = 23).  `st` is that triple after point n, by recursion on n; the invariant `PhiS` holds the two
  scratch buffers at its second and third components, and the proof data hands window 3 back at its first component
  and window 4 at its third.
-/
import proofs.«110455_j16295105921245_1_alg».proof.Proof.Gen.Kernel.Frame
import proofs.«110455_j16295105921245_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The blocks and the scratch buffers, at their literal types -/

/-- The anchor tile the body loads at point `t`. -/
abbrev xa (c : Dev nD) (t : Fin cfg0.N) : Vec F S1024x512 .f32 := iblk m c 0 t
/-- The positive tile. -/
abbrev xp (c : Dev nD) (t : Fin cfg0.N) : Vec F S1024x512 .f32 := iblk m c 1 t
/-- The key tile. -/
abbrev xv (c : Dev nD) (t : Fin cfg0.N) : Vec F S512x512 .f32 := iblk m c 2 t

/-- The two scratch operands: whole buffers of the kernel's own. -/
abbrev scA : Memref sig .tc .vmem S1024x512 .f32 := Memref.whole cc0_scratch0
abbrev scS : Memref sig .tc .vmem S1024x1 .f32 := Memref.whole cc0_scratch1

/-! ## The state carried from point to point -/

/-- One key tile added to the running sum: the accumulator `acc` plus, row by row, the sum over the tile's 512 keys of
    the exponentials of the masked, scaled similarities of the normalised anchor tile `an` with the key tile `x2`. -/
def step (i : grid0.Coords) (an : Vec F S1024x512 .f32) (x2 : Vec F S512x512 .f32) (acc : Vec F S1024x1 .f32) :
    Vec F S1024x1 .f32 :=
  k0_pay1 (k0_pay6 an x2) (k0_pay7 i) (Scalar.ofBits .f32 0xCE6E6B28#32) acc

/-- The state after the first point of a row tile: the tile's positive terms, its normalised anchor rows, and the
    first key tile added to a zero accumulator. -/
def first (c : Dev nD) (t : Fin cfg0.N) : Vec F S1024x1 .f32 × Vec F S1024x512 .f32 × Vec F S1024x1 .f32 :=
  (k0_pay4 (xa m c t) (xp m c t), k0_pay3 (xa m c t), step (grid0.coords t) (k0_pay3 (xa m c t)) (xv m c t) k0_pay5)

/-- The state after a later point of a row tile: positive terms and normalised anchor rows kept, one more key tile
    added. -/
def next (c : Dev nD) (t : Fin cfg0.N) (p : Vec F S1024x1 .f32 × Vec F S1024x512 .f32 × Vec F S1024x1 .f32) :
    Vec F S1024x1 .f32 × Vec F S1024x512 .f32 × Vec F S1024x1 .f32 :=
  (p.1, p.2.1, step (grid0.coords t) p.2.1 (xv m c t) p.2.2)

/-- The state after point `n`. -/
def st (c : Dev nD) : (n : ℕ) → n < cfg0.N → Vec F S1024x1 .f32 × Vec F S1024x512 .f32 × Vec F S1024x1 .f32
  | 0, hn => first m c ⟨0, hn⟩
  | n + 1, hn =>
    if (n + 1) % 24 = 0 then first m c ⟨n + 1, hn⟩
    else next m c ⟨n + 1, hn⟩ (st c n (Nat.lt_of_succ_lt hn))

/-- At the first point of a row tile. -/
theorem st_first (c : Dev nD) (t : Fin cfg0.N) (h0 : t.val % 24 = 0) : st m c t.val t.isLt = first m c t := by
  obtain ⟨n, hn⟩ := t
  cases n with
  | zero => rfl
  | succ n => exact if_pos h0

/-- At a later point of a row tile. -/
theorem st_next (c : Dev nD) (t : Fin cfg0.N) (h0 : ¬ t.val % 24 = 0) :
    st m c t.val t.isLt = next m c t (st m c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- Before the first point the scratch buffers hold anything; after point `n` they hold the state's second and third
    components.  The generator register is at some state throughout. -/
def PhiS (c : Dev nD) : (n : ℕ) → n ≤ cfg0.N → sProp 𝕄
  | 0, _ => Pipeline.ΦA spec0 c
  | n + 1, hn => iprop(iprop(owns (c : Thread nD τ) scA fullShare ((st m c n hn).2.1) ∗ owns (c : Thread nD τ) scS fullShare ((st m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare ((st m c n hn).2.1) ∗ owns (c : Thread nD τ) scS fullShare ((st m c n hn).2.2)) ∗ (∃ r, prngReg c r)) := rfl

theorem PhiS_pos (c : Dev nD) (n : ℕ) (h : n ≤ cfg0.N) (hz : n ≠ 0) :
    PhiS m c n h = iprop(iprop(owns (c : Thread nD τ) scA fullShare ((st m c (n - 1) (by omega)).2.1) ∗ owns (c : Thread nD τ) scS fullShare ((st m c (n - 1) (by omega)).2.2)) ∗ (∃ r, prngReg c r)) := by
  cases n with
  | zero => exact absurd rfl hz
  | succ n => rfl

/-! ## The proof data -/

/-- The arrays as the region finds them; after the body at point `t` each input's buffer at its block, output window 3 at
    the row tile's positive terms, output window 4 at the running sum (read only where the body stores it, at the row
    tile's last point); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (st m c t.val t.isLt).1
    | ⟨4, _⟩ => (st m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (st m c t.val t.isLt).1 := by dsimp only [dats]
theorem after_4 (c : Dev nD) (t : Fin cfg0.N) : (dats m 0 c).after 4 t = (st m c t.val t.isLt).2.2 := by dsimp only [dats]

end Cert.Kernel.Body

end
-- ==== Proof.Kernel.Runs.lean ====
/-
  The kernel body run whole, in each of the three cases of its two conditionals.

  Case A (first key tile of a row tile): the body normalises the anchor tile into the first scratch buffer, stores the
  row tile's positive terms into output window 3, zeroes the second scratch buffer and adds the first key tile's row
  sums to it.  Case B (a middle key tile): it reads the normalised anchor tile back and adds the key tile's row sums
  to the second scratch buffer.  Case C (last key tile): as B, and then copies the second scratch buffer into output
  window 4.  Each run hands back, for every buffer the body stored into, the list of pieces written (found by the
  symbolic run), and every other buffer as it was.
-/
import proofs.«110455_j16295105921245_1_alg».proof.Proof.Kernel.Data
import proofs.«110455_j16295105921245_1_alg».proof.Proof.Gen.Kernel.Points
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditionals, over the grid -/

/-- "This is the first key tile of the row tile." -/
abbrev condFirst (i : grid0.Coords) : Prop := k0_cond1 i = 1#1
theorem hcondFirst : ∀ t : Fin cfg0.N, condFirst (grid0.coords t) ↔ t.val % 24 = 0 :=
  (by decide +kernel : ∀ t : Fin grid0.N, condFirst (grid0.coords t) ↔ t.val % 24 = 0)

/-- "This is the last key tile of the row tile." -/
abbrev condLast (i : grid0.Coords) : Prop := k0_cond2 i = 1#1
theorem hcondLast : ∀ t : Fin cfg0.N, condLast (grid0.coords t) ↔ t.val % 24 = 23 :=
  (by decide +kernel : ∀ t : Fin grid0.N, condLast (grid0.coords t) ↔ t.val % 24 = 23)

/-! ## Where the windows are idle, and where an output's buffer is fresh -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Output window 3 is stored into exactly at the first key tile. -/
theorem idle_3 : ∀ t : Fin cfg0.N, cfg0.idle 3 (grid0.coords t) = !decide (t.val % 24 = 0) :=
  (by decide +kernel : ∀ t : Fin grid0.N, cfg0.idle 3 (grid0.coords t) = !decide (t.val % 24 = 0))
/-- Output window 4 is stored into exactly at the last key tile. -/
theorem idle_4 : ∀ t : Fin cfg0.N, cfg0.idle 4 (grid0.coords t) = !decide (t.val % 24 = 23) :=
  (by decide +kernel : ∀ t : Fin grid0.N, cfg0.idle 4 (grid0.coords t) = !decide (t.val % 24 = 23))

/-- Window 3's buffer holds nothing of the row tile's yet exactly at the row tile's first point. -/
theorem fresh_3 : ∀ n, n ≤ cfg0.N → cfg0.fresh 3 n = decide (n % 24 = 0) :=
  Pipeline.Cfg.fresh_tab cfg0 3 (fun n => decide (n % 24 = 0)) (by decide)
    (by decide +kernel : ∀ t : Fin grid0.N, decide ((t.val + 1) % 24 = 0) = ((cfg0.win 3).flush t || (cfg0.idle 3 (grid0.coords t) && decide (t.val % 24 = 0))))

/-! ## The staging memrefs at a point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- The region's invariant with the two scratch operands as memrefs owned at some contents. -/
theorem PhiA_eq (c : Dev nD) :
    (Pipeline.ΦA spec0 c : sProp 𝕄)
      = iprop(iprop((∃ d, owns (c : Thread nD τ) scA fullShare d) ∗ (∃ d, owns (c : Thread nD τ) scS fullShare d)) ∗ (∃ r, prngReg c r)) := by
  unfold Pipeline.ΦA; rw [scopedRest0_eq]; simp only [scA, scS, owns_whole]; try rfl

/-! ## The three runs -/

set_option maxHeartbeats 1000000 in
/-- Case A. Pieces: `LO` written into output window 3's buffer, `LA` into the first scratch, `LS` into the second. -/
noncomputable def runA (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) :
    Σ' (LO : List (View.Piece (Elt F) S1024x1 .f32)) (LA : List (View.Piece (Elt F) S1024x512 .f32)), { LS : List (View.Piece (Elt F) S1024x1 .f32) //
      ∀ (y6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y6 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ owns (c : Thread nD τ) arg6 fullShare y6 ∗ (∃ f, arg7.view.loc (c : Thread nD τ) ↦[arg7.view.set]{fullShare} arg7.view.writes (Elt F) f LA) ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun y6 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact hf4
      iexact H4
    isplitl [HS0]; · iexists _; iexact HS0
    iexists _; iexact HS1

set_option maxHeartbeats 1000000 in
/-- Case B. Pieces: `LS` written into the second scratch; everything else as it was. -/
noncomputable def runB (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : ¬condLast i)
    (x0 : Vec F S1024x512 .f32) (x1 : Vec F S1024x512 .f32) (x2 : Vec F S512x512 .f32)
    (xs0 : Vec F S1024x512 .f32) (xs1 : Vec F S1024x1 .f32) :
    { LS : List (View.Piece (Elt F) S1024x1 .f32) //
      ∀ (y5 : Vec F S1024x1 .f32) (y6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y5 ∗ owns (c : Thread nD τ) arg6 fullShare y6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare y5 ∗ owns (c : Thread nD τ) arg6 fullShare y6 ∗ owns (c : Thread nD τ) arg7 fullShare xs0 ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun y5 y6 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    isplitl [H4]
    · iexists _; isplitr; · ipureintro; exact hf4
      iexact H4
    isplitl [HS0]
    · iexists _; isplitr; · ipureintro; exact harg7.read_unread _
      iexact HS0
    iexists _; iexact HS1

set_option maxHeartbeats 1000000 in
/-- Case C. Pieces: `LO` written into output window 4's buffer, `LS` into the second scratch. -/
noncomputable def runC (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32)
    (xs0 : Vec F S1024x512 .f32) (xs1 : Vec F S1024x1 .f32) :
    Σ' (LO : List (View.Piece (Elt F) S1024x1 .f32)), { LS : List (View.Piece (Elt F) S1024x1 .f32) //
      ∀ (y5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y5 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare y5 ∗ (∃ f, arg6.view.loc (c : Thread nD τ) ↦[arg6.view.set]{fullShare} arg6.view.writes (Elt F) f LO) ∗ owns (c : Thread nD τ) arg7 fullShare xs0 ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun y5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    isplitl [H4]; · iexists _; iexact H4
    isplitl [HS0]
    · iexists _; isplitr; · ipureintro; exact harg7.read_unread _
      iexact HS0
    iexists _; iexact HS1

end Cert.Kernel.Body

end
-- ==== Proof.Kernel.Body.lean ====
/-
  The body obligation of the kernel region, the launch, and the frame.

  What each of the three whole-body runs leaves in the buffers it stored into is read back as a payload of the loaded
  blocks; the state `st` of the proof data is exactly those payloads, point by point.  Output window 3 is stored at the
  first point of a row tile only and written back after the last: in between it is idle, so the buffer still holds the
  first point's store when it is written back.  Output window 4 is stored at the last point only.
-/
import proofs.«110455_j16295105921245_1_alg».proof.Proof.Kernel.Runs

import Idealize.ShloMosaic.Lib.Pipeline.Value
import Idealize.ShloMosaic.Lib.Pipeline.FrameSuffix

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## What each run leaves in the buffers it stored into -/

theorem hz : (![0, 0] : Fin 2 → Nat) = fun _ => 0 := funext fun a => by fin_cases a <;> rfl

/-- What case A leaves in output window 3's buffer: the pieces cover the buffer. -/
theorem coverA_O (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) (y : S1024x1.Idx) :
    ∃ pc ∈ (runA c i arg2 harg2 arg3 harg3 arg4 harg4 arg5 harg5 arg6 harg6 arg7 harg7 arg8 harg8 hc0 hc1 x0 x1 x2).1, y ∈ pc.1.set :=
  View.cover_of_tiledL (runA c i arg2 harg2 arg3 harg3 arg4 harg4 arg5 harg5 arg6 harg6 arg7 harg7 arg8 harg8 hc0 hc1 x0 x1 x2).1 S1024x1.size (by sl_kernel_rfl) y

/-- What case A leaves in output window 3's buffer: its pieces read back over junk. -/
def outA_O (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) : Vec F S1024x1 .f32 :=
  scS.view.read (Elt F) (scS.view.writes (Elt F) scS.view.junk (runA c i arg2 harg2 arg3 harg3 arg4 harg4 arg5 harg5 arg6 harg6 arg7 harg7 arg8 harg8 hc0 hc1 x0 x1 x2).1)

/-- What case A leaves in output window 3's buffer, as a payload of the loaded blocks. -/
theorem outA_O_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) :
    outA_O c i arg2 harg2 arg3 harg3 arg4 harg4 arg5 harg5 arg6 harg6 arg7 harg7 arg8 harg8 hc0 hc1 x0 x1 x2 = k0_pay4 x0 x1 := by
  unfold outA_O
  rw [View.read_writes_eq_canon _ _ _ (coverA_O c i arg2 harg2 arg3 harg3 arg4 harg4 arg5 harg5 arg6 harg6 arg7 harg7 arg8 harg8 hc0 hc1 x0 x1 x2)]
  unfold runA
  dsimp only
  sl_unfold_words
  rw [View.canon_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case A leaves in the first scratch buffer: the pieces cover the buffer. -/
theorem coverA_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) (y : S1024x512.Idx) :
    ∃ pc ∈ (runA c i arg2 harg2 arg3 harg3 arg4 harg4 arg5 harg5 arg6 harg6 arg7 harg7 arg8 harg8 hc0 hc1 x0 x1 x2).2.1, y ∈ pc.1.set :=
  View.cover_of_tiledL (runA c i arg2 harg2 arg3 harg3 arg4 harg4 arg5 harg5 arg6 harg6 arg7 harg7 arg8 harg8 hc0 hc1 x0 x1 x2).2.1 S1024x512.size (by sl_kernel_rfl) y

/-- What case A leaves in the first scratch buffer: its pieces read back over junk. -/
def outA_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) : Vec F S1024x512 .f32 :=
  scA.view.read (Elt F) (scA.view.writes (Elt F) scA.view.junk (runA c i arg2 harg2 arg3 harg3 arg4 harg4 arg5 harg5 arg6 harg6 arg7 harg7 arg8 harg8 hc0 hc1 x0 x1 x2).2.1)

/-- What case A leaves in the first scratch buffer, as a payload of the loaded blocks. -/
theorem outA_A_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) :
    outA_A c i arg2 harg2 arg3 harg3 arg4 harg4 arg5 harg5 arg6 harg6 arg7 harg7 arg8 harg8 hc0 hc1 x0 x1 x2 = k0_pay3 x0 := by
  unfold outA_A
  rw [View.read_writes_eq_canon _ _ _ (coverA_A c i arg2 harg2 arg3 harg3 arg4 harg4 arg5 harg5 arg6 harg6 arg7 harg7 arg8 harg8 hc0 hc1 x0 x1 x2)]
  unfold runA
  dsimp only
  sl_unfold_words
  rw [View.canon_unit_zero (S := S1024x512) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case A leaves in the second scratch buffer: the pieces cover the buffer. -/
theorem coverA_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) (y : S1024x1.Idx) :
    ∃ pc ∈ (runA c i arg2 harg2 arg3 harg3 arg4 harg4 arg5 harg5 arg6 harg6 arg7 harg7 arg8 harg8 hc0 hc1 x0 x1 x2).2.2.1, y ∈ pc.1.set :=
  View.cover_of_tiledL (runA c i arg2 harg2 arg3 harg3 arg4 harg4 arg5 harg5 arg6 harg6 arg7 harg7 arg8 harg8 hc0 hc1 x0 x1 x2).2.2.1 S1024x1.size (by sl_kernel_rfl) y

/-- What case A leaves in the second scratch buffer: its pieces read back over junk. -/
def outA_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) : Vec F S1024x1 .f32 :=
  scS.view.read (Elt F) (scS.view.writes (Elt F) scS.view.junk (runA c i arg2 harg2 arg3 harg3 arg4 harg4 arg5 harg5 arg6 harg6 arg7 harg7 arg8 harg8 hc0 hc1 x0 x1 x2).2.2.1)

/-- What case A leaves in the second scratch buffer, as a payload of the loaded blocks. -/
theorem outA_S_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) :
    outA_S c i arg2 harg2 arg3 harg3 arg4 harg4 arg5 harg5 arg6 harg6 arg7 harg7 arg8 harg8 hc0 hc1 x0 x1 x2 = step i (k0_pay3 x0) x2 k0_pay5 := by
  unfold outA_S
  rw [View.read_writes_eq_canon _ _ _ (coverA_S c i arg2 harg2 arg3 harg3 arg4 harg4 arg5 harg5 arg6 harg6 arg7 harg7 arg8 harg8 hc0 hc1 x0 x1 x2)]
  unfold runA
  dsimp only
  sl_unfold_words
  rw [View.canon_cons_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case B leaves in the second scratch buffer: the pieces cover the buffer. -/
theorem coverB_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : ¬condLast i)
    (x0 : Vec F S1024x512 .f32) (x1 : Vec F S1024x512 .f32) (x2 : Vec F S512x512 .f32) (xs0 : Vec F S1024x512 .f32) (xs1 : Vec F S1024x1 .f32) (y : S1024x1.Idx) :
    ∃ pc ∈ (runB c i arg2 harg2 arg3 harg3 arg4 harg4 arg5 harg5 arg6 harg6 arg7 harg7 arg8 harg8 hc0 hc1 x0 x1 x2 xs0 xs1).1, y ∈ pc.1.set :=
  View.cover_of_tiledL (runB c i arg2 harg2 arg3 harg3 arg4 harg4 arg5 harg5 arg6 harg6 arg7 harg7 arg8 harg8 hc0 hc1 x0 x1 x2 xs0 xs1).1 S1024x1.size (by sl_kernel_rfl) y

/-- What case B leaves in the second scratch buffer: its pieces read back over junk. -/
def outB_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : ¬condLast i)
    (x0 : Vec F S1024x512 .f32) (x1 : Vec F S1024x512 .f32) (x2 : Vec F S512x512 .f32) (xs0 : Vec F S1024x512 .f32) (xs1 : Vec F S1024x1 .f32) : Vec F S1024x1 .f32 :=
  scS.view.read (Elt F) (scS.view.writes (Elt F) scS.view.junk (runB c i arg2 harg2 arg3 harg3 arg4 harg4 arg5 harg5 arg6 harg6 arg7 harg7 arg8 harg8 hc0 hc1 x0 x1 x2 xs0 xs1).1)

/-- What case B leaves in the second scratch buffer, as a payload of the loaded blocks. -/
theorem outB_S_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : ¬condLast i)
    (x0 : Vec F S1024x512 .f32) (x1 : Vec F S1024x512 .f32) (x2 : Vec F S512x512 .f32) (xs0 : Vec F S1024x512 .f32) (xs1 : Vec F S1024x1 .f32) :
    outB_S c i arg2 harg2 arg3 harg3 arg4 harg4 arg5 harg5 arg6 harg6 arg7 harg7 arg8 harg8 hc0 hc1 x0 x1 x2 xs0 xs1 = step i xs0 x2 xs1 := by
  unfold outB_S
  rw [View.read_writes_eq_canon _ _ _ (coverB_S c i arg2 harg2 arg3 harg3 arg4 harg4 arg5 harg5 arg6 harg6 arg7 harg7 arg8 harg8 hc0 hc1 x0 x1 x2 xs0 xs1)]
  unfold runB
  dsimp only
  sl_unfold_words
  rw [View.canon_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case C leaves in output window 4's buffer: the pieces cover the buffer. -/
theorem coverC_O (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) (y : S1024x1.Idx) :
    ∃ pc ∈ (runC c i arg2 harg2 arg3 harg3 arg4 harg4 arg5 harg5 arg6 harg6 arg7 harg7 arg8 harg8 hc0 hc1 x0 x1 x2 xs0 xs1).1, y ∈ pc.1.set :=
  View.cover_of_tiledL (runC c i arg2 harg2 arg3 harg3 arg4 harg4 arg5 harg5 arg6 harg6 arg7 harg7 arg8 harg8 hc0 hc1 x0 x1 x2 xs0 xs1).1 S1024x1.size (by sl_kernel_rfl) y

/-- What case C leaves in output window 4's buffer: its pieces read back over junk. -/
def outC_O (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) : Vec F S1024x1 .f32 :=
  scS.view.read (Elt F) (scS.view.writes (Elt F) scS.view.junk (runC c i arg2 harg2 arg3 harg3 arg4 harg4 arg5 harg5 arg6 harg6 arg7 harg7 arg8 harg8 hc0 hc1 x0 x1 x2 xs0 xs1).1)

/-- What case C leaves in output window 4's buffer, as a payload of the loaded blocks. -/
theorem outC_O_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) :
    outC_O c i arg2 harg2 arg3 harg3 arg4 harg4 arg5 harg5 arg6 harg6 arg7 harg7 arg8 harg8 hc0 hc1 x0 x1 x2 xs0 xs1 = step i xs0 x2 xs1 := by
  unfold outC_O
  rw [View.read_writes_eq_canon _ _ _ (coverC_O c i arg2 harg2 arg3 harg3 arg4 harg4 arg5 harg5 arg6 harg6 arg7 harg7 arg8 harg8 hc0 hc1 x0 x1 x2 xs0 xs1)]
  unfold runC
  dsimp only
  sl_unfold_words
  rw [View.canon_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case C leaves in the second scratch buffer: the pieces cover the buffer. -/
theorem coverC_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) (y : S1024x1.Idx) :
    ∃ pc ∈ (runC c i arg2 harg2 arg3 harg3 arg4 harg4 arg5 harg5 arg6 harg6 arg7 harg7 arg8 harg8 hc0 hc1 x0 x1 x2 xs0 xs1).2.1, y ∈ pc.1.set :=
  View.cover_of_tiledL (runC c i arg2 harg2 arg3 harg3 arg4 harg4 arg5 harg5 arg6 harg6 arg7 harg7 arg8 harg8 hc0 hc1 x0 x1 x2 xs0 xs1).2.1 S1024x1.size (by sl_kernel_rfl) y

/-- What case C leaves in the second scratch buffer: its pieces read back over junk. -/
def outC_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) : Vec F S1024x1 .f32 :=
  scS.view.read (Elt F) (scS.view.writes (Elt F) scS.view.junk (runC c i arg2 harg2 arg3 harg3 arg4 harg4 arg5 harg5 arg6 harg6 arg7 harg7 arg8 harg8 hc0 hc1 x0 x1 x2 xs0 xs1).2.1)

/-- What case C leaves in the second scratch buffer, as a payload of the loaded blocks. -/
theorem outC_S_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) :
    outC_S c i arg2 harg2 arg3 harg3 arg4 harg4 arg5 harg5 arg6 harg6 arg7 harg7 arg8 harg8 hc0 hc1 x0 x1 x2 xs0 xs1 = step i xs0 x2 xs1 := by
  unfold outC_S
  rw [View.read_writes_eq_canon _ _ _ (coverC_S c i arg2 harg2 arg3 harg3 arg4 harg4 arg5 harg5 arg6 harg6 arg7 harg7 arg8 harg8 hc0 hc1 x0 x1 x2 xs0 xs1)]
  unfold runC
  dsimp only
  sl_unfold_words
  rw [View.canon_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-! ## What the staging buffers hold when the body runs -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The positive terms stay in the state through the later points of a row tile. -/
theorem st_keeps_pos (c : Dev nD) (t : Fin cfg0.N) (h0 : ¬ t.val % 24 = 0) :
    (st m c t.val t.isLt).1 = (st m c (t.val - 1) (Nat.lt_of_le_of_lt (Nat.sub_le _ _) t.isLt)).1 := by
  rw [st_next m c t h0]; rfl

/-- Output window 3's buffer, after the first point of a row tile, holds what that point stored: the window is idle at
    the later points and is written back only after the last. -/
theorem before_3 (c : Dev nD) (t : Fin cfg0.N) (h0 : ¬ t.val % 24 = 0) (d) :
    (dats m 0 c).before 3 t d = (st m c (t.val - 1) (Nat.lt_of_le_of_lt (Nat.sub_le _ _) t.isLt)).1 := by
  have hN : t.val < 96 := lt_of_lt_of_eq t.isLt (show cfg0.N = 96 from N_0)
  rw [(dats m 0 c).before_out_traj 3 rfl (fun _ _ => rfl) (fun u hu hi hf => by
      have hu0 : ¬ u.val % 24 = 0 := by
        intro h; rw [idle_3 u, h] at hi; simp at hi
      rw [after_3, after_3]; exact st_keeps_pos m c u hu0) t.val t rfl d,
    fresh_3 t.val (Nat.le_of_lt t.isLt)]
  rw [if_neg (by simpa using h0), after_3]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; which of the three cases the point is in is decided by
    its position in the row tile; the invariant hands over the scratch buffers at what the point before left (at
    anything before the very first point) and takes them back at this point's state; an output window idle at the point
    is handed back as it was found, and at the row tile's last point window 3 still holds the first point's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 24 = 0
  · -- the first key tile of a row tile
    have h1 : ¬ t.val % 24 = 23 := by omega
    have hc0 : condFirst (grid0.coords t) := (hcondFirst t).mpr h0
    have hc1 : ¬ condLast (grid0.coords t) := fun h => h1 ((hcondLast t).mp h)
    have hi3 : cfg0.idle 3 (grid0.coords t) = false := by rw [idle_3 t, h0]; rfl
    have hi4 : cfg0.idle 4 (grid0.coords t) = true := by rw [idle_4 t]; simp [h1]
    have hf4 : (cfg0.win 4).flush t = false := by
      cases h : (cfg0.win 4).flush t
      · rfl
      · exact absurd ((flush0_4 t).mp h) h1
    rw [show (dats m 0 c).leavesExact 0 t = owns (c : Thread nD τ) (ms0 t) fullShare ((dats m 0 c).after 0 t) from by unfold Dat.leavesExact; rw [live_0 t], after_0]
    rw [show (dats m 0 c).leavesExact 1 t = owns (c : Thread nD τ) (ms1 t) fullShare ((dats m 0 c).after 1 t) from by unfold Dat.leavesExact; rw [live_1 t], after_1]
    rw [show (dats m 0 c).leavesExact 2 t = owns (c : Thread nD τ) (ms2 t) fullShare ((dats m 0 c).after 2 t) from by unfold Dat.leavesExact; rw [live_2 t], after_2]
    rw [show (dats m 0 c).leavesExact 3 t = owns (c : Thread nD τ) (ms3 t) fullShare ((dats m 0 c).after 3 t) from by
      unfold Dat.leavesExact; rw [hi3], after_3]
    rw [(dats m 0 c).leavesExact_idle 4 t hi4 hf4]
    rw [st_first m c t h0]
    unfold first; dsimp only
    rw [← outA_S_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t),
      ← outA_O_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t),
      ← outA_A_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t)]
    unfold outA_O outA_A outA_S
    by_cases hz0 : t.val = 0
    · rw [PhiS_castSucc m c t, PhiS_zero m c _ _ hz0, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩⟩
      iapply ((runA c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexists _; iexact HS0
      isplitl [HS1]; · iexists _; iexact HS1
      iintro ⟨H0, H1, H2, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_A c _ _ _ _ _ _ _ _ _ _ _ _ _ _ _ _ _ _ _ _)
          unfold owns; iexists _; isplitr
          swap; · iexact HS1
          ipureintro; exact View.read_writes_of_cover _ _ _ _ _ (coverA_S c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_O c _ _ _ _ _ _ _ _ _ _ _ _ _ _ _ _ _ _ _ _)
      iexists d4; iexact H4
    · rw [PhiS_castSucc m c t, PhiS_pos m c _ _ hz0]
      iintro ⟨⟨⟨HS0, HS1⟩, Hg⟩, Ho, ⟨%d0, H0⟩, ⟨%d1, H1⟩, ⟨%d2, H2⟩, ⟨%d3, H3⟩, ⟨%d4, H4⟩⟩
      iapply ((runA c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexists _; iexact HS0
      isplitl [HS1]; · iexists _; iexact HS1
      iintro ⟨H0, H1, H2, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_A c _ _ _ _ _ _ _ _ _ _ _ _ _ _ _ _ _ _ _ _)
          unfold owns; iexists _; isplitr
          swap; · iexact HS1
          ipureintro; exact View.read_writes_of_cover _ _ _ _ _ (coverA_S c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_O c _ _ _ _ _ _ _ _ _ _ _ _ _ _ _ _ _ _ _ _)
      iexists d4; iexact H4
  · have hz0 : t.val ≠ 0 := fun h => h0 (by rw [h])
    have hc0 : ¬ condFirst (grid0.coords t) := fun h => h0 ((hcondFirst t).mp h)
    have hi3 : cfg0.idle 3 (grid0.coords t) = true := by rw [idle_3 t]; simp [h0]
    by_cases h1 : t.val % 24 = 23
    · -- the last key tile
      have hc1 : condLast (grid0.coords t) := (hcondLast t).mpr h1
      have hi4 : cfg0.idle 4 (grid0.coords t) = false := by rw [idle_4 t, h1]; rfl
      have hf3 : (cfg0.win 3).flush t = true := (flush0_3 t).mpr h1
      rw [show (dats m 0 c).leavesExact 0 t = owns (c : Thread nD τ) (ms0 t) fullShare ((dats m 0 c).after 0 t) from by unfold Dat.leavesExact; rw [live_0 t], after_0]
      rw [show (dats m 0 c).leavesExact 1 t = owns (c : Thread nD τ) (ms1 t) fullShare ((dats m 0 c).after 1 t) from by unfold Dat.leavesExact; rw [live_1 t], after_1]
      rw [show (dats m 0 c).leavesExact 2 t = owns (c : Thread nD τ) (ms2 t) fullShare ((dats m 0 c).after 2 t) from by unfold Dat.leavesExact; rw [live_2 t], after_2]
      rw [show (dats m 0 c).leavesExact 3 t = owns (c : Thread nD τ) (ms3 t) fullShare ((dats m 0 c).after 3 t) from by
        unfold Dat.leavesExact; rw [hi3, hf3], after_3]
      rw [show (dats m 0 c).leavesExact 4 t = owns (c : Thread nD τ) (ms4 t) fullShare ((dats m 0 c).after 4 t) from by
        unfold Dat.leavesExact; rw [hi4], after_4]
      simp only [before_3 m c t h0]
      rw [st_next m c t h0]
      unfold next; dsimp only
      rw [← outC_S_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t) _ _]
      rw [PhiS_castSucc m c t, PhiS_pos m c _ _ hz0]
      iintro ⟨⟨⟨HS0, HS1⟩, Hg⟩, Ho, ⟨%d0, H0⟩, ⟨%d1, H1⟩, ⟨%d2, H2⟩, ⟨%d3, H3⟩, ⟨%d4, H4⟩⟩
      iapply ((runC c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t) _ _).2.2 _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, HS0, ⟨%es1, HS1⟩⟩
      isplitl [HS0 HS1 Hg]
      · isplitl [HS0 HS1]
        · isplitl [HS0]
          · iexact HS0
          unfold outC_S owns; iexists _; isplitr
          swap; · iexact HS1
          ipureintro; exact View.read_writes_of_cover _ _ _ _ _ (coverC_S c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold outC_S owns; iexists _; isplitr
      swap; · iexact H4
      ipureintro
      exact (View.read_writes_of_cover _ _ _ _ _ (coverC_O c _ _ _ _ _ _ _ _ _ _ _ _ _ _ _ _ _ _ _ _ _ _)).trans
        ((outC_O_eq c _ _ _ _ _ _ _ _ _ _ _ _ _ _ _ _ _ _ _ _ _ _).trans (outC_S_eq c _ _ _ _ _ _ _ _ _ _ _ _ _ _ _ _ _ _ _ _ _ _).symm)
    · -- a middle key tile
      have hc1 : ¬ condLast (grid0.coords t) := fun h => h1 ((hcondLast t).mp h)
      have hi4 : cfg0.idle 4 (grid0.coords t) = true := by rw [idle_4 t]; simp [h1]
      have hf3 : (cfg0.win 3).flush t = false := by
        cases h : (cfg0.win 3).flush t
        · rfl
        · exact absurd ((flush0_3 t).mp h) h1
      have hf4 : (cfg0.win 4).flush t = false := by
        cases h : (cfg0.win 4).flush t
        · rfl
        · exact absurd ((flush0_4 t).mp h) h1
      rw [show (dats m 0 c).leavesExact 0 t = owns (c : Thread nD τ) (ms0 t) fullShare ((dats m 0 c).after 0 t) from by unfold Dat.leavesExact; rw [live_0 t], after_0]
      rw [show (dats m 0 c).leavesExact 1 t = owns (c : Thread nD τ) (ms1 t) fullShare ((dats m 0 c).after 1 t) from by unfold Dat.leavesExact; rw [live_1 t], after_1]
      rw [show (dats m 0 c).leavesExact 2 t = owns (c : Thread nD τ) (ms2 t) fullShare ((dats m 0 c).after 2 t) from by unfold Dat.leavesExact; rw [live_2 t], after_2]
      rw [(dats m 0 c).leavesExact_idle 3 t hi3 hf3, (dats m 0 c).leavesExact_idle 4 t hi4 hf4]
      rw [st_next m c t h0]
      unfold next; dsimp only
      rw [← outB_S_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t) _ _]
      rw [PhiS_castSucc m c t, PhiS_pos m c _ _ hz0]
      iintro ⟨⟨⟨HS0, HS1⟩, Hg⟩, Ho, ⟨%d0, H0⟩, ⟨%d1, H1⟩, ⟨%d2, H2⟩, ⟨%d3, H3⟩, ⟨%d4, H4⟩⟩
      iapply ((runB c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t) _ _).2 ((dats m 0 c).before 3 t d3) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, ⟨%es1, HS1⟩⟩
      isplitl [HS0 HS1 Hg]
      · isplitl [HS0 HS1]
        · isplitl [HS0]
          · iexact HS0
          unfold outB_S owns; iexists _; isplitr
          swap; · iexact HS1
          ipureintro; exact View.read_writes_of_cover _ _ _ _ _ (coverB_S c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every weakly fair execution of the program terminates without a fault; every array of the pipeline ends at what the
    proof data computes (an input unchanged, an output at the blocks written back), every other buffer at what the
    host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelIdeal.Data.lean ====
/-
  The pipeline's proof data for the one kernel region.

  Over a row tile i the kernel visits 24 key tiles j = 0 .. 23 (point t = 24 i + j).  Three values live across the points
  of a row tile: the positive terms of the tile's rows (written into output window 3 at j = 0 and written back to the
  array only after j = 23), the normalised anchor tile (first scratch buffer, written at j = 0) and the running sum of
  the negative terms (second scratch buffer: zeroed and first added to at j = 0, added to at every later j, copied into
  output window 4 at j = 23).  `st` is that triple after point n, by recursion on n; the invariant `PhiS` holds the two
  scratch buffers at its second and third components, and the proof data hands window 3 back at its first component
  and window 4 at its third.
-/
import proofs.«110455_j16295105921245_1_alg».proof.Proof.Gen.KernelIdeal.Frame
import proofs.«110455_j16295105921245_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The blocks and the scratch buffers, at their literal types -/

/-- The anchor tile the body loads at point `t`. -/
abbrev xa (c : Dev nD) (t : Fin cfg0.N) : Vec F S1024x512 .f32 := iblk m c 0 t
/-- The positive tile. -/
abbrev xp (c : Dev nD) (t : Fin cfg0.N) : Vec F S1024x512 .f32 := iblk m c 1 t
/-- The key tile. -/
abbrev xv (c : Dev nD) (t : Fin cfg0.N) : Vec F S512x512 .f32 := iblk m c 2 t

/-- The two scratch operands: whole buffers of the kernel's own. -/
abbrev scA : Memref sig .tc .vmem S1024x512 .f32 := Memref.whole cc0_scratch0
abbrev scS : Memref sig .tc .vmem S1024x1 .f32 := Memref.whole cc0_scratch1

/-! ## The state carried from point to point -/

/-- One key tile added to the running sum: the accumulator `acc` plus, row by row, the sum over the tile's 512 keys of
    the exponentials of the masked, scaled similarities of the normalised anchor tile `an` with the key tile `x2`. -/
def step (i : grid0.Coords) (an : Vec F S1024x512 .f32) (x2 : Vec F S512x512 .f32) (acc : Vec F S1024x1 .f32) :
    Vec F S1024x1 .f32 :=
  k0_pay1 (k0_pay6 an x2) (k0_pay7 i) (Scalar.ofBits .f32 0xCE6E6B28#32) acc

/-- The state after the first point of a row tile: the tile's positive terms, its normalised anchor rows, and the
    first key tile added to a zero accumulator. -/
def first (c : Dev nD) (t : Fin cfg0.N) : Vec F S1024x1 .f32 × Vec F S1024x512 .f32 × Vec F S1024x1 .f32 :=
  (k0_pay4 (xa m c t) (xp m c t), k0_pay3 (xa m c t), step (grid0.coords t) (k0_pay3 (xa m c t)) (xv m c t) k0_pay5)

/-- The state after a later point of a row tile: positive terms and normalised anchor rows kept, one more key tile
    added. -/
def next (c : Dev nD) (t : Fin cfg0.N) (p : Vec F S1024x1 .f32 × Vec F S1024x512 .f32 × Vec F S1024x1 .f32) :
    Vec F S1024x1 .f32 × Vec F S1024x512 .f32 × Vec F S1024x1 .f32 :=
  (p.1, p.2.1, step (grid0.coords t) p.2.1 (xv m c t) p.2.2)

/-- The state after point `n`. -/
def st (c : Dev nD) : (n : ℕ) → n < cfg0.N → Vec F S1024x1 .f32 × Vec F S1024x512 .f32 × Vec F S1024x1 .f32
  | 0, hn => first m c ⟨0, hn⟩
  | n + 1, hn =>
    if (n + 1) % 24 = 0 then first m c ⟨n + 1, hn⟩
    else next m c ⟨n + 1, hn⟩ (st c n (Nat.lt_of_succ_lt hn))

/-- At the first point of a row tile. -/
theorem st_first (c : Dev nD) (t : Fin cfg0.N) (h0 : t.val % 24 = 0) : st m c t.val t.isLt = first m c t := by
  obtain ⟨n, hn⟩ := t
  cases n with
  | zero => rfl
  | succ n => exact if_pos h0

/-- At a later point of a row tile. -/
theorem st_next (c : Dev nD) (t : Fin cfg0.N) (h0 : ¬ t.val % 24 = 0) :
    st m c t.val t.isLt = next m c t (st m c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- Before the first point the scratch buffers hold anything; after point `n` they hold the state's second and third
    components.  The generator register is at some state throughout. -/
def PhiS (c : Dev nD) : (n : ℕ) → n ≤ cfg0.N → sProp 𝕄
  | 0, _ => Pipeline.ΦA spec0 c
  | n + 1, hn => iprop(iprop(owns (c : Thread nD τ) scA fullShare ((st m c n hn).2.1) ∗ owns (c : Thread nD τ) scS fullShare ((st m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare ((st m c n hn).2.1) ∗ owns (c : Thread nD τ) scS fullShare ((st m c n hn).2.2)) ∗ (∃ r, prngReg c r)) := rfl

theorem PhiS_pos (c : Dev nD) (n : ℕ) (h : n ≤ cfg0.N) (hz : n ≠ 0) :
    PhiS m c n h = iprop(iprop(owns (c : Thread nD τ) scA fullShare ((st m c (n - 1) (by omega)).2.1) ∗ owns (c : Thread nD τ) scS fullShare ((st m c (n - 1) (by omega)).2.2)) ∗ (∃ r, prngReg c r)) := by
  cases n with
  | zero => exact absurd rfl hz
  | succ n => rfl

/-! ## The proof data -/

/-- The arrays as the region finds them; after the body at point `t` each input's buffer at its block, output window 3 at
    the row tile's positive terms, output window 4 at the running sum (read only where the body stores it, at the row
    tile's last point); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (st m c t.val t.isLt).1
    | ⟨4, _⟩ => (st m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (st m c t.val t.isLt).1 := by dsimp only [dats]
theorem after_4 (c : Dev nD) (t : Fin cfg0.N) : (dats m 0 c).after 4 t = (st m c t.val t.isLt).2.2 := by dsimp only [dats]

end Cert.KernelIdeal.Body

end
-- ==== Proof.KernelIdeal.Runs.lean ====
/-
  The kernel body run whole, in each of the three cases of its two conditionals.

  Case A (first key tile of a row tile): the body normalises the anchor tile into the first scratch buffer, stores the
  row tile's positive terms into output window 3, zeroes the second scratch buffer and adds the first key tile's row
  sums to it.  Case B (a middle key tile): it reads the normalised anchor tile back and adds the key tile's row sums
  to the second scratch buffer.  Case C (last key tile): as B, and then copies the second scratch buffer into output
  window 4.  Each run hands back, for every buffer the body stored into, the list of pieces written (found by the
  symbolic run), and every other buffer as it was.
-/
import proofs.«110455_j16295105921245_1_alg».proof.Proof.KernelIdeal.Data
import proofs.«110455_j16295105921245_1_alg».proof.Proof.Gen.KernelIdeal.Points
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditionals, over the grid -/

/-- "This is the first key tile of the row tile." -/
abbrev condFirst (i : grid0.Coords) : Prop := k0_cond1 i = 1#1
theorem hcondFirst : ∀ t : Fin cfg0.N, condFirst (grid0.coords t) ↔ t.val % 24 = 0 :=
  (by decide +kernel : ∀ t : Fin grid0.N, condFirst (grid0.coords t) ↔ t.val % 24 = 0)

/-- "This is the last key tile of the row tile." -/
abbrev condLast (i : grid0.Coords) : Prop := k0_cond2 i = 1#1
theorem hcondLast : ∀ t : Fin cfg0.N, condLast (grid0.coords t) ↔ t.val % 24 = 23 :=
  (by decide +kernel : ∀ t : Fin grid0.N, condLast (grid0.coords t) ↔ t.val % 24 = 23)

/-! ## Where the windows are idle, and where an output's buffer is fresh -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Output window 3 is stored into exactly at the first key tile. -/
theorem idle_3 : ∀ t : Fin cfg0.N, cfg0.idle 3 (grid0.coords t) = !decide (t.val % 24 = 0) :=
  (by decide +kernel : ∀ t : Fin grid0.N, cfg0.idle 3 (grid0.coords t) = !decide (t.val % 24 = 0))
/-- Output window 4 is stored into exactly at the last key tile. -/
theorem idle_4 : ∀ t : Fin cfg0.N, cfg0.idle 4 (grid0.coords t) = !decide (t.val % 24 = 23) :=
  (by decide +kernel : ∀ t : Fin grid0.N, cfg0.idle 4 (grid0.coords t) = !decide (t.val % 24 = 23))

/-- Window 3's buffer holds nothing of the row tile's yet exactly at the row tile's first point. -/
theorem fresh_3 : ∀ n, n ≤ cfg0.N → cfg0.fresh 3 n = decide (n % 24 = 0) :=
  Pipeline.Cfg.fresh_tab cfg0 3 (fun n => decide (n % 24 = 0)) (by decide)
    (by decide +kernel : ∀ t : Fin grid0.N, decide ((t.val + 1) % 24 = 0) = ((cfg0.win 3).flush t || (cfg0.idle 3 (grid0.coords t) && decide (t.val % 24 = 0))))

/-! ## The staging memrefs at a point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- The region's invariant with the two scratch operands as memrefs owned at some contents. -/
theorem PhiA_eq (c : Dev nD) :
    (Pipeline.ΦA spec0 c : sProp 𝕄)
      = iprop(iprop((∃ d, owns (c : Thread nD τ) scA fullShare d) ∗ (∃ d, owns (c : Thread nD τ) scS fullShare d)) ∗ (∃ r, prngReg c r)) := by
  unfold Pipeline.ΦA; rw [scopedRest0_eq]; simp only [scA, scS, owns_whole]; try rfl

/-! ## The three runs -/

set_option maxHeartbeats 1000000 in
/-- Case A. Pieces: `LO` written into output window 3's buffer, `LA` into the first scratch, `LS` into the second. -/
noncomputable def runA (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) :
    Σ' (LO : List (View.Piece (Elt F) S1024x1 .f32)) (LA : List (View.Piece (Elt F) S1024x512 .f32)), { LS : List (View.Piece (Elt F) S1024x1 .f32) //
      ∀ (y6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y6 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ owns (c : Thread nD τ) arg6 fullShare y6 ∗ (∃ f, arg7.view.loc (c : Thread nD τ) ↦[arg7.view.set]{fullShare} arg7.view.writes (Elt F) f LA) ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun y6 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact hf4
      iexact H4
    isplitl [HS0]; · iexists _; iexact HS0
    iexists _; iexact HS1

set_option maxHeartbeats 1000000 in
/-- Case B. Pieces: `LS` written into the second scratch; everything else as it was. -/
noncomputable def runB (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : ¬condLast i)
    (x0 : Vec F S1024x512 .f32) (x1 : Vec F S1024x512 .f32) (x2 : Vec F S512x512 .f32)
    (xs0 : Vec F S1024x512 .f32) (xs1 : Vec F S1024x1 .f32) :
    { LS : List (View.Piece (Elt F) S1024x1 .f32) //
      ∀ (y5 : Vec F S1024x1 .f32) (y6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y5 ∗ owns (c : Thread nD τ) arg6 fullShare y6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare y5 ∗ owns (c : Thread nD τ) arg6 fullShare y6 ∗ owns (c : Thread nD τ) arg7 fullShare xs0 ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun y5 y6 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    isplitl [H4]
    · iexists _; isplitr; · ipureintro; exact hf4
      iexact H4
    isplitl [HS0]
    · iexists _; isplitr; · ipureintro; exact harg7.read_unread _
      iexact HS0
    iexists _; iexact HS1

set_option maxHeartbeats 1000000 in
/-- Case C. Pieces: `LO` written into output window 4's buffer, `LS` into the second scratch. -/
noncomputable def runC (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32)
    (xs0 : Vec F S1024x512 .f32) (xs1 : Vec F S1024x1 .f32) :
    Σ' (LO : List (View.Piece (Elt F) S1024x1 .f32)), { LS : List (View.Piece (Elt F) S1024x1 .f32) //
      ∀ (y5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y5 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare y5 ∗ (∃ f, arg6.view.loc (c : Thread nD τ) ↦[arg6.view.set]{fullShare} arg6.view.writes (Elt F) f LO) ∗ owns (c : Thread nD τ) arg7 fullShare xs0 ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun y5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    isplitl [H4]; · iexists _; iexact H4
    isplitl [HS0]
    · iexists _; isplitr; · ipureintro; exact harg7.read_unread _
      iexact HS0
    iexists _; iexact HS1

end Cert.KernelIdeal.Body

end
-- ==== Proof.KernelIdeal.Body.lean ====
/-
  The body obligation of the kernel region, the launch, and the frame.

  What each of the three whole-body runs leaves in the buffers it stored into is read back as a payload of the loaded
  blocks; the state `st` of the proof data is exactly those payloads, point by point.  Output window 3 is stored at the
  first point of a row tile only and written back after the last: in between it is idle, so the buffer still holds the
  first point's store when it is written back.  Output window 4 is stored at the last point only.
-/
import proofs.«110455_j16295105921245_1_alg».proof.Proof.KernelIdeal.Runs

import Idealize.ShloMosaic.Lib.Pipeline.Value
import Idealize.ShloMosaic.Lib.Pipeline.FrameSuffix

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## What each run leaves in the buffers it stored into -/

theorem hz : (![0, 0] : Fin 2 → Nat) = fun _ => 0 := funext fun a => by fin_cases a <;> rfl

/-- What case A leaves in output window 3's buffer: the pieces cover the buffer. -/
theorem coverA_O (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) (y : S1024x1.Idx) :
    ∃ pc ∈ (runA c i arg2 harg2 arg3 harg3 arg4 harg4 arg5 harg5 arg6 harg6 arg7 harg7 arg8 harg8 hc0 hc1 x0 x1 x2).1, y ∈ pc.1.set :=
  View.cover_of_tiledL (runA c i arg2 harg2 arg3 harg3 arg4 harg4 arg5 harg5 arg6 harg6 arg7 harg7 arg8 harg8 hc0 hc1 x0 x1 x2).1 S1024x1.size (by sl_kernel_rfl) y

/-- What case A leaves in output window 3's buffer: its pieces read back over junk. -/
def outA_O (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) : Vec F S1024x1 .f32 :=
  scS.view.read (Elt F) (scS.view.writes (Elt F) scS.view.junk (runA c i arg2 harg2 arg3 harg3 arg4 harg4 arg5 harg5 arg6 harg6 arg7 harg7 arg8 harg8 hc0 hc1 x0 x1 x2).1)

/-- What case A leaves in output window 3's buffer, as a payload of the loaded blocks. -/
theorem outA_O_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) :
    outA_O c i arg2 harg2 arg3 harg3 arg4 harg4 arg5 harg5 arg6 harg6 arg7 harg7 arg8 harg8 hc0 hc1 x0 x1 x2 = k0_pay4 x0 x1 := by
  unfold outA_O
  rw [View.read_writes_eq_canon _ _ _ (coverA_O c i arg2 harg2 arg3 harg3 arg4 harg4 arg5 harg5 arg6 harg6 arg7 harg7 arg8 harg8 hc0 hc1 x0 x1 x2)]
  unfold runA
  dsimp only
  sl_unfold_words
  rw [View.canon_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case A leaves in the first scratch buffer: the pieces cover the buffer. -/
theorem coverA_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) (y : S1024x512.Idx) :
    ∃ pc ∈ (runA c i arg2 harg2 arg3 harg3 arg4 harg4 arg5 harg5 arg6 harg6 arg7 harg7 arg8 harg8 hc0 hc1 x0 x1 x2).2.1, y ∈ pc.1.set :=
  View.cover_of_tiledL (runA c i arg2 harg2 arg3 harg3 arg4 harg4 arg5 harg5 arg6 harg6 arg7 harg7 arg8 harg8 hc0 hc1 x0 x1 x2).2.1 S1024x512.size (by sl_kernel_rfl) y

/-- What case A leaves in the first scratch buffer: its pieces read back over junk. -/
def outA_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) : Vec F S1024x512 .f32 :=
  scA.view.read (Elt F) (scA.view.writes (Elt F) scA.view.junk (runA c i arg2 harg2 arg3 harg3 arg4 harg4 arg5 harg5 arg6 harg6 arg7 harg7 arg8 harg8 hc0 hc1 x0 x1 x2).2.1)

/-- What case A leaves in the first scratch buffer, as a payload of the loaded blocks. -/
theorem outA_A_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) :
    outA_A c i arg2 harg2 arg3 harg3 arg4 harg4 arg5 harg5 arg6 harg6 arg7 harg7 arg8 harg8 hc0 hc1 x0 x1 x2 = k0_pay3 x0 := by
  unfold outA_A
  rw [View.read_writes_eq_canon _ _ _ (coverA_A c i arg2 harg2 arg3 harg3 arg4 harg4 arg5 harg5 arg6 harg6 arg7 harg7 arg8 harg8 hc0 hc1 x0 x1 x2)]
  unfold runA
  dsimp only
  sl_unfold_words
  rw [View.canon_unit_zero (S := S1024x512) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case A leaves in the second scratch buffer: the pieces cover the buffer. -/
theorem coverA_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) (y : S1024x1.Idx) :
    ∃ pc ∈ (runA c i arg2 harg2 arg3 harg3 arg4 harg4 arg5 harg5 arg6 harg6 arg7 harg7 arg8 harg8 hc0 hc1 x0 x1 x2).2.2.1, y ∈ pc.1.set :=
  View.cover_of_tiledL (runA c i arg2 harg2 arg3 harg3 arg4 harg4 arg5 harg5 arg6 harg6 arg7 harg7 arg8 harg8 hc0 hc1 x0 x1 x2).2.2.1 S1024x1.size (by sl_kernel_rfl) y

/-- What case A leaves in the second scratch buffer: its pieces read back over junk. -/
def outA_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) : Vec F S1024x1 .f32 :=
  scS.view.read (Elt F) (scS.view.writes (Elt F) scS.view.junk (runA c i arg2 harg2 arg3 harg3 arg4 harg4 arg5 harg5 arg6 harg6 arg7 harg7 arg8 harg8 hc0 hc1 x0 x1 x2).2.2.1)

/-- What case A leaves in the second scratch buffer, as a payload of the loaded blocks. -/
theorem outA_S_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : condFirst i) (hc1 : ¬condLast i)
    (x0 : Vec F S1024x512 .f32) (x1 : Vec F S1024x512 .f32) (x2 : Vec F S512x512 .f32) :
    outA_S c i arg2 harg2 arg3 harg3 arg4 harg4 arg5 harg5 arg6 harg6 arg7 harg7 arg8 harg8 hc0 hc1 x0 x1 x2 = step i (k0_pay3 x0) x2 k0_pay5 := by
  unfold outA_S
  rw [View.read_writes_eq_canon _ _ _ (coverA_S c i arg2 harg2 arg3 harg3 arg4 harg4 arg5 harg5 arg6 harg6 arg7 harg7 arg8 harg8 hc0 hc1 x0 x1 x2)]
  unfold runA
  dsimp only
  sl_unfold_words
  rw [View.canon_cons_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case B leaves in the second scratch buffer: the pieces cover the buffer. -/
theorem coverB_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : ¬condLast i)
    (x0 : Vec F S1024x512 .f32) (x1 : Vec F S1024x512 .f32) (x2 : Vec F S512x512 .f32) (xs0 : Vec F S1024x512 .f32) (xs1 : Vec F S1024x1 .f32) (y : S1024x1.Idx) :
    ∃ pc ∈ (runB c i arg2 harg2 arg3 harg3 arg4 harg4 arg5 harg5 arg6 harg6 arg7 harg7 arg8 harg8 hc0 hc1 x0 x1 x2 xs0 xs1).1, y ∈ pc.1.set :=
  View.cover_of_tiledL (runB c i arg2 harg2 arg3 harg3 arg4 harg4 arg5 harg5 arg6 harg6 arg7 harg7 arg8 harg8 hc0 hc1 x0 x1 x2 xs0 xs1).1 S1024x1.size (by sl_kernel_rfl) y

/-- What case B leaves in the second scratch buffer: its pieces read back over junk. -/
def outB_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : ¬condLast i)
    (x0 : Vec F S1024x512 .f32) (x1 : Vec F S1024x512 .f32) (x2 : Vec F S512x512 .f32) (xs0 : Vec F S1024x512 .f32) (xs1 : Vec F S1024x1 .f32) : Vec F S1024x1 .f32 :=
  scS.view.read (Elt F) (scS.view.writes (Elt F) scS.view.junk (runB c i arg2 harg2 arg3 harg3 arg4 harg4 arg5 harg5 arg6 harg6 arg7 harg7 arg8 harg8 hc0 hc1 x0 x1 x2 xs0 xs1).1)

/-- What case B leaves in the second scratch buffer, as a payload of the loaded blocks. -/
theorem outB_S_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : ¬condLast i)
    (x0 : Vec F S1024x512 .f32) (x1 : Vec F S1024x512 .f32) (x2 : Vec F S512x512 .f32) (xs0 : Vec F S1024x512 .f32) (xs1 : Vec F S1024x1 .f32) :
    outB_S c i arg2 harg2 arg3 harg3 arg4 harg4 arg5 harg5 arg6 harg6 arg7 harg7 arg8 harg8 hc0 hc1 x0 x1 x2 xs0 xs1 = step i xs0 x2 xs1 := by
  unfold outB_S
  rw [View.read_writes_eq_canon _ _ _ (coverB_S c i arg2 harg2 arg3 harg3 arg4 harg4 arg5 harg5 arg6 harg6 arg7 harg7 arg8 harg8 hc0 hc1 x0 x1 x2 xs0 xs1)]
  unfold runB
  dsimp only
  sl_unfold_words
  rw [View.canon_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case C leaves in output window 4's buffer: the pieces cover the buffer. -/
theorem coverC_O (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) (y : S1024x1.Idx) :
    ∃ pc ∈ (runC c i arg2 harg2 arg3 harg3 arg4 harg4 arg5 harg5 arg6 harg6 arg7 harg7 arg8 harg8 hc0 hc1 x0 x1 x2 xs0 xs1).1, y ∈ pc.1.set :=
  View.cover_of_tiledL (runC c i arg2 harg2 arg3 harg3 arg4 harg4 arg5 harg5 arg6 harg6 arg7 harg7 arg8 harg8 hc0 hc1 x0 x1 x2 xs0 xs1).1 S1024x1.size (by sl_kernel_rfl) y

/-- What case C leaves in output window 4's buffer: its pieces read back over junk. -/
def outC_O (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) : Vec F S1024x1 .f32 :=
  scS.view.read (Elt F) (scS.view.writes (Elt F) scS.view.junk (runC c i arg2 harg2 arg3 harg3 arg4 harg4 arg5 harg5 arg6 harg6 arg7 harg7 arg8 harg8 hc0 hc1 x0 x1 x2 xs0 xs1).1)

/-- What case C leaves in output window 4's buffer, as a payload of the loaded blocks. -/
theorem outC_O_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) :
    outC_O c i arg2 harg2 arg3 harg3 arg4 harg4 arg5 harg5 arg6 harg6 arg7 harg7 arg8 harg8 hc0 hc1 x0 x1 x2 xs0 xs1 = step i xs0 x2 xs1 := by
  unfold outC_O
  rw [View.read_writes_eq_canon _ _ _ (coverC_O c i arg2 harg2 arg3 harg3 arg4 harg4 arg5 harg5 arg6 harg6 arg7 harg7 arg8 harg8 hc0 hc1 x0 x1 x2 xs0 xs1)]
  unfold runC
  dsimp only
  sl_unfold_words
  rw [View.canon_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-- What case C leaves in the second scratch buffer: the pieces cover the buffer. -/
theorem coverC_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) (y : S1024x1.Idx) :
    ∃ pc ∈ (runC c i arg2 harg2 arg3 harg3 arg4 harg4 arg5 harg5 arg6 harg6 arg7 harg7 arg8 harg8 hc0 hc1 x0 x1 x2 xs0 xs1).2.1, y ∈ pc.1.set :=
  View.cover_of_tiledL (runC c i arg2 harg2 arg3 harg3 arg4 harg4 arg5 harg5 arg6 harg6 arg7 harg7 arg8 harg8 hc0 hc1 x0 x1 x2 xs0 xs1).2.1 S1024x1.size (by sl_kernel_rfl) y

/-- What case C leaves in the second scratch buffer: its pieces read back over junk. -/
def outC_S (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) : Vec F S1024x1 .f32 :=
  scS.view.read (Elt F) (scS.view.writes (Elt F) scS.view.junk (runC c i arg2 harg2 arg3 harg3 arg4 harg4 arg5 harg5 arg6 harg6 arg7 harg7 arg8 harg8 hc0 hc1 x0 x1 x2 xs0 xs1).2.1)

/-- What case C leaves in the second scratch buffer, as a payload of the loaded blocks. -/
theorem outC_S_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (hc0 : ¬condFirst i) (hc1 : condLast i)
    (x0 : Vec F S1024x512 .f32) (x1 : Vec F S1024x512 .f32) (x2 : Vec F S512x512 .f32) (xs0 : Vec F S1024x512 .f32) (xs1 : Vec F S1024x1 .f32) :
    outC_S c i arg2 harg2 arg3 harg3 arg4 harg4 arg5 harg5 arg6 harg6 arg7 harg7 arg8 harg8 hc0 hc1 x0 x1 x2 xs0 xs1 = step i xs0 x2 xs1 := by
  unfold outC_S
  rw [View.read_writes_eq_canon _ _ _ (coverC_S c i arg2 harg2 arg3 harg3 arg4 harg4 arg5 harg5 arg6 harg6 arg7 harg7 arg8 harg8 hc0 hc1 x0 x1 x2 xs0 xs1)]
  unfold runC
  dsimp only
  sl_unfold_words
  rw [View.canon_unit_zero (S := S1024x1) hz]
  try unfold step
  try simp only [View.readAt_eq_ld, harg2.read_unread, harg3.read_unread, harg4.read_unread, harg7.read_unread, harg8.read_unread, View.ld_unit_zero (S := S1024x512) hz, View.ld_unit_zero (S := S512x512) hz, View.ld_unit_zero (S := S1024x1) hz, View.readCov_unit_zero (S := S1024x512) _ hz, View.readCov_unit_zero (S := S1024x1) _ hz]

/-! ## What the staging buffers hold when the body runs -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The positive terms stay in the state through the later points of a row tile. -/
theorem st_keeps_pos (c : Dev nD) (t : Fin cfg0.N) (h0 : ¬ t.val % 24 = 0) :
    (st m c t.val t.isLt).1 = (st m c (t.val - 1) (Nat.lt_of_le_of_lt (Nat.sub_le _ _) t.isLt)).1 := by
  rw [st_next m c t h0]; rfl

/-- Output window 3's buffer, after the first point of a row tile, holds what that point stored: the window is idle at
    the later points and is written back only after the last. -/
theorem before_3 (c : Dev nD) (t : Fin cfg0.N) (h0 : ¬ t.val % 24 = 0) (d) :
    (dats m 0 c).before 3 t d = (st m c (t.val - 1) (Nat.lt_of_le_of_lt (Nat.sub_le _ _) t.isLt)).1 := by
  have hN : t.val < 96 := lt_of_lt_of_eq t.isLt (show cfg0.N = 96 from N_0)
  rw [(dats m 0 c).before_out_traj 3 rfl (fun _ _ => rfl) (fun u hu hi hf => by
      have hu0 : ¬ u.val % 24 = 0 := by
        intro h; rw [idle_3 u, h] at hi; simp at hi
      rw [after_3, after_3]; exact st_keeps_pos m c u hu0) t.val t rfl d,
    fresh_3 t.val (Nat.le_of_lt t.isLt)]
  rw [if_neg (by simpa using h0), after_3]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; which of the three cases the point is in is decided by
    its position in the row tile; the invariant hands over the scratch buffers at what the point before left (at
    anything before the very first point) and takes them back at this point's state; an output window idle at the point
    is handed back as it was found, and at the row tile's last point window 3 still holds the first point's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 24 = 0
  · -- the first key tile of a row tile
    have h1 : ¬ t.val % 24 = 23 := by omega
    have hc0 : condFirst (grid0.coords t) := (hcondFirst t).mpr h0
    have hc1 : ¬ condLast (grid0.coords t) := fun h => h1 ((hcondLast t).mp h)
    have hi3 : cfg0.idle 3 (grid0.coords t) = false := by rw [idle_3 t, h0]; rfl
    have hi4 : cfg0.idle 4 (grid0.coords t) = true := by rw [idle_4 t]; simp [h1]
    have hf4 : (cfg0.win 4).flush t = false := by
      cases h : (cfg0.win 4).flush t
      · rfl
      · exact absurd ((flush0_4 t).mp h) h1
    rw [show (dats m 0 c).leavesExact 0 t = owns (c : Thread nD τ) (ms0 t) fullShare ((dats m 0 c).after 0 t) from by unfold Dat.leavesExact; rw [live_0 t], after_0]
    rw [show (dats m 0 c).leavesExact 1 t = owns (c : Thread nD τ) (ms1 t) fullShare ((dats m 0 c).after 1 t) from by unfold Dat.leavesExact; rw [live_1 t], after_1]
    rw [show (dats m 0 c).leavesExact 2 t = owns (c : Thread nD τ) (ms2 t) fullShare ((dats m 0 c).after 2 t) from by unfold Dat.leavesExact; rw [live_2 t], after_2]
    rw [show (dats m 0 c).leavesExact 3 t = owns (c : Thread nD τ) (ms3 t) fullShare ((dats m 0 c).after 3 t) from by
      unfold Dat.leavesExact; rw [hi3], after_3]
    rw [(dats m 0 c).leavesExact_idle 4 t hi4 hf4]
    rw [st_first m c t h0]
    unfold first; dsimp only
    rw [← outA_S_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t),
      ← outA_O_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t),
      ← outA_A_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t)]
    unfold outA_O outA_A outA_S
    by_cases hz0 : t.val = 0
    · rw [PhiS_castSucc m c t, PhiS_zero m c _ _ hz0, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩⟩
      iapply ((runA c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexists _; iexact HS0
      isplitl [HS1]; · iexists _; iexact HS1
      iintro ⟨H0, H1, H2, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_A c _ _ _ _ _ _ _ _ _ _ _ _ _ _ _ _ _ _ _ _)
          unfold owns; iexists _; isplitr
          swap; · iexact HS1
          ipureintro; exact View.read_writes_of_cover _ _ _ _ _ (coverA_S c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_O c _ _ _ _ _ _ _ _ _ _ _ _ _ _ _ _ _ _ _ _)
      iexists d4; iexact H4
    · rw [PhiS_castSucc m c t, PhiS_pos m c _ _ hz0]
      iintro ⟨⟨⟨HS0, HS1⟩, Hg⟩, Ho, ⟨%d0, H0⟩, ⟨%d1, H1⟩, ⟨%d2, H2⟩, ⟨%d3, H3⟩, ⟨%d4, H4⟩⟩
      iapply ((runA c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexists _; iexact HS0
      isplitl [HS1]; · iexists _; iexact HS1
      iintro ⟨H0, H1, H2, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_A c _ _ _ _ _ _ _ _ _ _ _ _ _ _ _ _ _ _ _ _)
          unfold owns; iexists _; isplitr
          swap; · iexact HS1
          ipureintro; exact View.read_writes_of_cover _ _ _ _ _ (coverA_S c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_O c _ _ _ _ _ _ _ _ _ _ _ _ _ _ _ _ _ _ _ _)
      iexists d4; iexact H4
  · have hz0 : t.val ≠ 0 := fun h => h0 (by rw [h])
    have hc0 : ¬ condFirst (grid0.coords t) := fun h => h0 ((hcondFirst t).mp h)
    have hi3 : cfg0.idle 3 (grid0.coords t) = true := by rw [idle_3 t]; simp [h0]
    by_cases h1 : t.val % 24 = 23
    · -- the last key tile
      have hc1 : condLast (grid0.coords t) := (hcondLast t).mpr h1
      have hi4 : cfg0.idle 4 (grid0.coords t) = false := by rw [idle_4 t, h1]; rfl
      have hf3 : (cfg0.win 3).flush t = true := (flush0_3 t).mpr h1
      rw [show (dats m 0 c).leavesExact 0 t = owns (c : Thread nD τ) (ms0 t) fullShare ((dats m 0 c).after 0 t) from by unfold Dat.leavesExact; rw [live_0 t], after_0]
      rw [show (dats m 0 c).leavesExact 1 t = owns (c : Thread nD τ) (ms1 t) fullShare ((dats m 0 c).after 1 t) from by unfold Dat.leavesExact; rw [live_1 t], after_1]
      rw [show (dats m 0 c).leavesExact 2 t = owns (c : Thread nD τ) (ms2 t) fullShare ((dats m 0 c).after 2 t) from by unfold Dat.leavesExact; rw [live_2 t], after_2]
      rw [show (dats m 0 c).leavesExact 3 t = owns (c : Thread nD τ) (ms3 t) fullShare ((dats m 0 c).after 3 t) from by
        unfold Dat.leavesExact; rw [hi3, hf3], after_3]
      rw [show (dats m 0 c).leavesExact 4 t = owns (c : Thread nD τ) (ms4 t) fullShare ((dats m 0 c).after 4 t) from by
        unfold Dat.leavesExact; rw [hi4], after_4]
      simp only [before_3 m c t h0]
      rw [st_next m c t h0]
      unfold next; dsimp only
      rw [← outC_S_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t) _ _]
      rw [PhiS_castSucc m c t, PhiS_pos m c _ _ hz0]
      iintro ⟨⟨⟨HS0, HS1⟩, Hg⟩, Ho, ⟨%d0, H0⟩, ⟨%d1, H1⟩, ⟨%d2, H2⟩, ⟨%d3, H3⟩, ⟨%d4, H4⟩⟩
      iapply ((runC c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t) _ _).2.2 _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, HS0, ⟨%es1, HS1⟩⟩
      isplitl [HS0 HS1 Hg]
      · isplitl [HS0 HS1]
        · isplitl [HS0]
          · iexact HS0
          unfold outC_S owns; iexists _; isplitr
          swap; · iexact HS1
          ipureintro; exact View.read_writes_of_cover _ _ _ _ _ (coverC_S c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold outC_S owns; iexists _; isplitr
      swap; · iexact H4
      ipureintro
      exact (View.read_writes_of_cover _ _ _ _ _ (coverC_O c _ _ _ _ _ _ _ _ _ _ _ _ _ _ _ _ _ _ _ _ _ _)).trans
        ((outC_O_eq c _ _ _ _ _ _ _ _ _ _ _ _ _ _ _ _ _ _ _ _ _ _).trans (outC_S_eq c _ _ _ _ _ _ _ _ _ _ _ _ _ _ _ _ _ _ _ _ _ _).symm)
    · -- a middle key tile
      have hc1 : ¬ condLast (grid0.coords t) := fun h => h1 ((hcondLast t).mp h)
      have hi4 : cfg0.idle 4 (grid0.coords t) = true := by rw [idle_4 t]; simp [h1]
      have hf3 : (cfg0.win 3).flush t = false := by
        cases h : (cfg0.win 3).flush t
        · rfl
        · exact absurd ((flush0_3 t).mp h) h1
      have hf4 : (cfg0.win 4).flush t = false := by
        cases h : (cfg0.win 4).flush t
        · rfl
        · exact absurd ((flush0_4 t).mp h) h1
      rw [show (dats m 0 c).leavesExact 0 t = owns (c : Thread nD τ) (ms0 t) fullShare ((dats m 0 c).after 0 t) from by unfold Dat.leavesExact; rw [live_0 t], after_0]
      rw [show (dats m 0 c).leavesExact 1 t = owns (c : Thread nD τ) (ms1 t) fullShare ((dats m 0 c).after 1 t) from by unfold Dat.leavesExact; rw [live_1 t], after_1]
      rw [show (dats m 0 c).leavesExact 2 t = owns (c : Thread nD τ) (ms2 t) fullShare ((dats m 0 c).after 2 t) from by unfold Dat.leavesExact; rw [live_2 t], after_2]
      rw [(dats m 0 c).leavesExact_idle 3 t hi3 hf3, (dats m 0 c).leavesExact_idle 4 t hi4 hf4]
      rw [st_next m c t h0]
      unfold next; dsimp only
      rw [← outB_S_eq c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t) _ _]
      rw [PhiS_castSucc m c t, PhiS_pos m c _ _ hz0]
      iintro ⟨⟨⟨HS0, HS1⟩, Hg⟩, Ho, ⟨%d0, H0⟩, ⟨%d1, H1⟩, ⟨%d2, H2⟩, ⟨%d3, H3⟩, ⟨%d4, H4⟩⟩
      iapply ((runB c (grid0.coords t) (ms0 t) (hs0 t) (ms1 t) (hs1 t) (ms2 t) (hs2 t) (ms3 t) (hs3 t) (ms4 t) (hs4 t) scA (Memref.isWhole_whole _) scS (Memref.isWhole_whole _) hc0 hc1 (xa m c t) (xp m c t) (xv m c t) _ _).2 ((dats m 0 c).before 3 t d3) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, ⟨%es1, HS1⟩⟩
      isplitl [HS0 HS1 Hg]
      · isplitl [HS0 HS1]
        · isplitl [HS0]
          · iexact HS0
          unfold outB_S owns; iexists _; isplitr
          swap; · iexact HS1
          ipureintro; exact View.read_writes_of_cover _ _ _ _ _ (coverB_S c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every weakly fair execution of the program terminates without a fault; every array of the pipeline ends at what the
    proof data computes (an input unchanged, an output at the blocks written back), every other buffer at what the
    host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.RowSpec.lean ====
/-
  What both programs compute, row by row, on the extended reals.

  A row x of 512 entries is normalised by the larger of its Euclidean norm and a floor: nrm x d = x d / max (sqrt (sum x^2)) eps.
  The positive term of row b is exp ((nrm a_b . nrm p_b) / T).  The negative term of row b against a key row y is
  exp (s / T) with s the fill value on the self pair and nrm a_b . nrm y otherwise; the row's negative sum adds these
  over all 3 * 4096 key rows.  The loss is minus the mean over the 4096 rows of log (pos / (pos + neg + epsL)).

  The kernel visits the key rows in 24 consecutive tiles of 512 and accumulates the tiles' sums from a zero
  accumulator (`accF`); the reference sums over the view axis and the key axis at once.  Addition on the extended
  reals is commutative and associative, so the two arrangements give the same sum (`accF_eq_sum`, `tiles_eq_views`).
-/
import Idealize.ShloMosaic.PureOps.Ideal
import Idealize.ShloMosaic.Lib.ValueIdx

noncomputable section

open scoped BigOperators
open Idealize.ShloMosaic Idealize.ShloMosaic.ValueIdx

namespace Cert.RowSpec

/-- The floor under a row's norm. -/
abbrev epsN : EReal := Ideal.ofBits .f32 0x2B8CBCCC#32
/-- The temperature. -/
abbrev tmp : EReal := Ideal.ofBits .f32 0x3E4CCCCD#32
/-- The value a self pair's similarity is replaced by. -/
abbrev fill : EReal := Ideal.ofBits .f32 0xCE6E6B28#32
/-- The term added under the logarithm's quotient. -/
abbrev epsL : EReal := Ideal.ofBits .f32 0x322BCC77#32
/-- The number of rows, as the mean's divisor. -/
abbrev cntB : EReal := Ideal.ofBits .f32 0x45800000#32

/-- A row's normaliser: the larger of its Euclidean norm and the floor. -/
def den (x : Fin 512 → EReal) : EReal := max (Ideal.sqrt (∑ d : Fin 512, x d * x d)) epsN

/-- The normalised row. -/
def nrm (x : Fin 512 → EReal) (d : Fin 512) : EReal := Ideal.div (x d) (den x)

/-- The similarity of two rows: the inner product of their normalisations. -/
def dotn (x y : Fin 512 → EReal) : EReal := ∑ d : Fin 512, nrm x d * nrm y d

/-- The positive term. -/
def posE (x y : Fin 512 → EReal) : EReal := Ideal.exp (Ideal.div (dotn x y) tmp)

/-- One negative term, over an already normalised query row `xn`: the fill value on the self pair. -/
def negT (self : Prop) [Decidable self] (xn : Fin 512 → EReal) (y : Fin 512 → EReal) : EReal :=
  Ideal.exp (Ideal.div (if self then fill else ∑ d : Fin 512, xn d * nrm y d) tmp)

/-- The accumulation over tiles: from zero, add tile 0, then tile 1, ... up to tile `j`. -/
def accF (s : ℕ → EReal) : ℕ → EReal
  | 0 => 0 + s 0
  | j + 1 => accF s j + s (j + 1)

/-- One row's term under the mean. -/
def lossTerm (pe ne : EReal) : EReal := Ideal.log (Ideal.div pe (pe + ne + epsL))

/-- The loss from the rows' positive terms and negative sums. -/
def loss (pe ne : Fin 4096 → EReal) : EReal := -(Ideal.div (0 + ∑ b : Fin 4096, lossTerm (pe b) (ne b)) cntB)

/-! ## The arrays' rows, and each side's result as a function of the argument arrays -/

/-- Row `b` of an array of rows of 512 entries. -/
def rowOf {n : ℕ} (a : Vec Ideal ⟨2, ![n, 512]⟩ .f32) (b : Fin n) : Fin 512 → EReal := fun d => a (ix2 b d)

/-- Key row `k` of view `v`. -/
def rowOf3 (w : Vec Ideal ⟨3, ![3, 4096, 512]⟩ .f32) (v : Fin 3) (k : Fin 4096) : Fin 512 → EReal := fun d => w (ix3 v k d)

/-- The kernel's first result array: each row's positive term. -/
def peK (a p : Vec Ideal ⟨2, ![4096, 512]⟩ .f32) : Vec Ideal ⟨2, ![4096, 1]⟩ .f32 := fun idx =>
  posE (rowOf a ⟨(idx 0).val, idx2_lt0 idx⟩) (rowOf p ⟨(idx 0).val, idx2_lt0 idx⟩)

/-- Key row `q` of key tile `j` of the flattened views (row `512 j + q` of 12288). -/
def tileRow (vf : Vec Ideal ⟨2, ![12288, 512]⟩ .f32) (j : ℕ) (q : Fin 512) : Fin 512 → EReal :=
  rowOf vf ⟨(j * 512 + q.val) % 12288, Nat.mod_lt _ (by norm_num)⟩

/-- Key tile `j`'s contribution to row `b`'s negative sum: the self pair is the key whose index within its view,
    `(j mod 8) 512 + q`, is `b`. -/
def tileSum (a : Vec Ideal ⟨2, ![4096, 512]⟩ .f32) (vf : Vec Ideal ⟨2, ![12288, 512]⟩ .f32) (b : Fin 4096) (j : ℕ) : EReal :=
  ∑ q : Fin 512, negT (b.val = (j % 8) * 512 + q.val) (nrm (rowOf a b)) (tileRow vf j q)

/-- The kernel's second result array: each row's negative sum, accumulated tile by tile. -/
def neK (a : Vec Ideal ⟨2, ![4096, 512]⟩ .f32) (vf : Vec Ideal ⟨2, ![12288, 512]⟩ .f32) : Vec Ideal ⟨2, ![4096, 1]⟩ .f32 := fun idx =>
  accF (tileSum a vf ⟨(idx 0).val, idx2_lt0 idx⟩) 23

/-- The reference's negative sum of row `b`: from zero, over every view and every key. -/
def neR (a : Vec Ideal ⟨2, ![4096, 512]⟩ .f32) (w : Vec Ideal ⟨3, ![3, 4096, 512]⟩ .f32) (b : Fin 4096) : EReal :=
  0 + ∑ v : Fin 3, ∑ k : Fin 4096, negT (b.val = k.val) (nrm (rowOf a b)) (rowOf3 w v k)

/-- The kernel program's result: the loss over its two result arrays. -/
def kerLoss (a p : Vec Ideal ⟨2, ![4096, 512]⟩ .f32) (vf : Vec Ideal ⟨2, ![12288, 512]⟩ .f32) : EReal :=
  loss (fun b => peK a p (ix2 b 0)) (fun b => neK a vf (ix2 b 0))

/-- The reference's result. -/
def refLoss (a p : Vec Ideal ⟨2, ![4096, 512]⟩ .f32) (w : Vec Ideal ⟨3, ![3, 4096, 512]⟩ .f32) : EReal :=
  loss (fun b => posE (rowOf a b) (rowOf p b)) (neR a w)

end Cert.RowSpec

end
-- ==== Proof.KernelIdeal.PayIdx.lean ====
/-
  The kernel body's payloads read at an index, on the extended reals.
-/
import proofs.«110455_j16295105921245_1_alg».proof.Proof.KernelIdeal.Data
import proofs.«110455_j16295105921245_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Idealize.ShloMosaic Idealize.ShloMosaic.TcCoe Idealize.ShloMosaic.ValueIdx
open Idealize.SL Idealize.SL.Sem
open scoped BigOperators
open Cert.KernelIdeal Cert.KernelIdeal.Gen Cert.KernelIdeal.Body Cert.RowSpec

/-! ## Row sums, and the row normaliser -/

/-- The sum over the second axis, cast to a column, read at row r. -/
theorem rowSum_apply {n m : ℕ} (v : FVec Ideal ⟨2, ![n, m]⟩ .f32)
    (hr : (⟨2, ![n, m]⟩ : Shape).Reduces [1] ⟨1, ![n]⟩) (hc : (⟨1, ![n]⟩ : Shape).ShapeCasts ⟨2, ![n, 1]⟩)
    (hφ : FKind.Formats .f32) (hacc : (0x00000000#32 : BitVec 32) = FKind.add.neutral .f32 hφ) (r : Fin n) :
    shapeCast ⟨2, ![n, 1]⟩ (multiReduction (F := Ideal) .add [1] ⟨1, ![n]⟩ v 0x00000000#32 hr hφ hacc) hc (ix2 r (0 : Fin 1))
      = ∑ d : Fin m, v (ix2 r d) := by
  refine (shapeCast_apply _ hc (ix2 r (0 : Fin 1)) (ix1 r) (by
    rw [Shape.rowMajor_val_one, Shape.rowMajor_val_two]
    show r.val = r.val * 1 + 0
    omega)).trans ?_
  rw [Ideal.multiReduction_add_single]
  refine Finset.sum_congr rfl fun k _ => ?_
  exact congrArg v (funext fun a => Fin.ext (by match a with | ⟨0, _⟩ => rfl | ⟨1, _⟩ => rfl))

/-- A column broadcast along the rows, read at (r, d). -/
theorem bcastCol_apply {α : Type} {n m : ℕ} (v : (⟨2, ![n, 1]⟩ : Shape).Idx → α)
    (h : (⟨2, ![n, 1]⟩ : Shape).Broadcasts ⟨2, ![n, m]⟩) (r : Fin n) (d : Fin m) :
    broadcastTo ⟨2, ![n, m]⟩ v h (ix2 r d) = v (ix2 r (0 : Fin 1)) := by
  refine broadcastTo_apply v h (ix2 r d) (ix2 r (0 : Fin 1)) fun ax => ?_
  match ax with
  | ⟨0, _⟩ =>
    show r.val = if n = 1 then 0 else r.val
    split
    · have := r.isLt; omega
    · rfl
  | ⟨1, _⟩ => rfl

/-- A tile of rows normalised, read at (r, d): row r, normalised, at d. -/
theorem normalise_apply {n : ℕ} (v : FVec Ideal ⟨2, ![n, 512]⟩ .f32)
    (hr : (⟨2, ![n, 512]⟩ : Shape).Reduces [1] ⟨1, ![n]⟩) (hc : (⟨1, ![n]⟩ : Shape).ShapeCasts ⟨2, ![n, 1]⟩)
    (hφ : FKind.Formats .f32) (hacc : (0x00000000#32 : BitVec 32) = FKind.add.neutral .f32 hφ)
    (hb : (⟨2, ![n, 1]⟩ : Shape).Broadcasts ⟨2, ![n, 512]⟩) (r : Fin n) (d : Fin 512) :
    divf v (broadcastTo ⟨2, ![n, 512]⟩ (maximumf (sqrt (shapeCast ⟨2, ![n, 1]⟩
        (multiReduction (F := Ideal) .add [1] ⟨1, ![n]⟩ (mulf v v) 0x00000000#32 hr hφ hacc) hc))
        (broadcast ⟨2, ![n, 1]⟩ (Scalar.ofBits (F := Ideal) .f32 0x2B8CBCCC#32))) hb) (ix2 r d)
      = nrm (fun d' => v (ix2 r d')) d := by
  rw [divf_apply, bcastCol_apply]
  show Ideal.div (v (ix2 r d)) (max (Ideal.sqrt (shapeCast ⟨2, ![n, 1]⟩ _ hc (ix2 r (0 : Fin 1)))) (Ideal.ofBits .f32 0x2B8CBCCC#32)) = _
  rw [rowSum_apply]
  rfl

/-- The normalised tile before its identity cast. -/
theorem pay2_apply (x0 : Vec Ideal S1024x512 .f32) (r : Fin 1024) (d : Fin 512) :
    k0_pay2 (F := Ideal) x0 (ix2 r d) = nrm (fun d' => x0 (ix2 r d')) d := by
  unfold k0_pay2
  exact normalise_apply x0 _ _ _ _ _ r d

/-- The normalised anchor tile at (r, d): row r of the tile, normalised, at d. -/
theorem pay3_apply (x0 : Vec Ideal S1024x512 .f32) (r : Fin 1024) (d : Fin 512) :
    k0_pay3 (F := Ideal) x0 (ix2 r d) = nrm (fun d' => x0 (ix2 r d')) d := by
  unfold k0_pay3
  rw [shapeCast_self]
  exact pay2_apply x0 r d

/-- The positive terms at row r. -/
theorem pay4_apply (x0 x1 : Vec Ideal S1024x512 .f32) (r : Fin 1024) :
    k0_pay4 (F := Ideal) x0 x1 (ix2 r (0 : Fin 1)) = posE (fun d => x0 (ix2 r d)) (fun d => x1 (ix2 r d)) := by
  unfold k0_pay4
  refine (congrArg (fun s => Ideal.exp (Ideal.div s tmp))
    (rowSum_apply (n := 1024) (m := 512) _ reduces_S1024x512_S1024 shapeCasts_S1024_S1024x1 _ _ r)).trans ?_
  unfold posE dotn
  refine congrArg (fun s => Ideal.exp (Ideal.div s tmp)) (Finset.sum_congr rfl fun d _ => ?_)
  refine (mulf_apply _ _ _).trans ?_
  rw [pay2_apply]
  exact congrArg (_ * ·) (normalise_apply x1 _ _ _ _ _ r d)

/-- The zero accumulator. -/
theorem pay5_apply (r : Fin 1024) : k0_pay5 (F := Ideal) (ix2 r (0 : Fin 1)) = 0 := by
  unfold k0_pay5
  rw [shapeCast_self]
  exact Ideal.ofBits_zero_f32

/-! ## The self-pair mask -/

/-- The first key of key tile `b` within its view, as the kernel computes it: the signed remainder of `512 b` by
    4096, moved into the non-negative range. -/
def keyBase (b : ℕ) : BitVec 32 :=
  let arg1 : BitVec 32 := BitVec.ofNat 32 b
  let v19 : BitVec 32 := Scalar.muli arg1 512#32
  let v20 : BitVec 1 := Scalar.cmpi .eq 4096#32 0#32
  let v21 : BitVec 32 := Scalar.select v20 1#32 4096#32
  let v22 : BitVec 32 := Scalar.remsi v19 v21
  let v23 : BitVec 1 := Scalar.cmpi .ne v22 0#32
  let v24 : BitVec 1 := Scalar.cmpi .slt v22 0#32
  let v25 : BitVec 1 := Scalar.cmpi .slt v21 0#32
  let v26 : BitVec 1 := Scalar.xori v24 v25
  let v27 : BitVec 1 := Scalar.andi v26 v23
  let v28 : BitVec 32 := Scalar.addi v22 v21
  Scalar.select v27 v28 v22

/-- Over the 24 key tiles it is `(b mod 8) 512`. -/
theorem keyBase_eq : ∀ b : Fin 24, keyBase b.val = BitVec.ofNat 32 ((b.val % 8) * 512) := by
  decide

/-- The mask at (r, q) compares the row's index with the key's index within its view. -/
theorem pay7_apply (i : grid0.Coords) (r : Fin 1024) (q : Fin 512) :
    k0_pay7 i (ix2 r q)
      = IntOp.cmpi .eq (IntOp.addi (Scalar.muli (BitVec.ofNat 32 (i 0).val) 1024#32) (BitVec.ofNat 32 r.val))
          (IntOp.addi (keyBase (i 1).val) (BitVec.ofNat 32 q.val)) := by
  unfold k0_pay7
  dsimp only
  show IntOp.cmpi .eq (broadcastTo S1024x512 _ broadcasts_S1024x1_S1024x512 (ix2 r q))
      (broadcastTo S1024x512 _ broadcasts_S1x512_S1024x512 (ix2 r q)) = _
  rw [bcastCol_apply, broadcastTo_1b_ab_apply]
  show IntOp.cmpi .eq (IntOp.addi _ (iota .tc S1024x1 32 [0] iota_S1024x1_d0_w32 (ix2 r (0 : Fin 1))))
      (IntOp.addi _ (iota .tc S1x512 32 [1] iota_S1x512_d1_w32 (ix2 (0 : Fin 1) q))) = _
  rw [iota_single_apply, iota_single_apply]
  rfl

/-- No word overflows: the comparison holds exactly when the two indices are equal naturals. -/
theorem mask_iff (a : ℕ) (b : Fin 24) (r q : ℕ) (ha : a < 4) (hr : r < 1024) (hq : q < 512) :
    IntOp.cmpi .eq (IntOp.addi (Scalar.muli (BitVec.ofNat 32 a) 1024#32) (BitVec.ofNat 32 r))
        (IntOp.addi (keyBase b.val) (BitVec.ofNat 32 q)) = 1#1
      ↔ a * 1024 + r = (b.val % 8) * 512 + q := by
  rw [keyBase_eq]
  have e1 : IntOp.addi (Scalar.muli (BitVec.ofNat 32 a) 1024#32) (BitVec.ofNat 32 r) = BitVec.ofNat 32 (a * 1024 + r) := by
    show BitVec.ofNat 32 a * BitVec.ofNat 32 1024 + BitVec.ofNat 32 r = _
    rw [← BitVec.ofNat_mul, ← BitVec.ofNat_add]
  have e2 : IntOp.addi (BitVec.ofNat 32 ((b.val % 8) * 512)) (BitVec.ofNat 32 q) = BitVec.ofNat 32 ((b.val % 8) * 512 + q) := by
    show BitVec.ofNat 32 ((b.val % 8) * 512) + BitVec.ofNat 32 q = _
    rw [← BitVec.ofNat_add]
  rw [e1, e2]
  have hb := b.isLt
  have hm : a * 1024 + r < 2 ^ 32 := by omega
  have hn : (b.val % 8) * 512 + q < 2 ^ 32 := by omega
  show BitVec.ofBool (BitVec.ofNat 32 (a * 1024 + r) == BitVec.ofNat 32 ((b.val % 8) * 512 + q)) = 1#1 ↔ _
  constructor
  · intro h
    have h' : BitVec.ofNat 32 (a * 1024 + r) = BitVec.ofNat 32 ((b.val % 8) * 512 + q) := by
      by_contra hne
      rw [beq_false_of_ne hne] at h
      exact absurd h (by decide)
    have h2 := congrArg BitVec.toNat h'
    rw [BitVec.toNat_ofNat, BitVec.toNat_ofNat, Nat.mod_eq_of_lt hm, Nat.mod_eq_of_lt hn] at h2
    exact h2
  · intro h
    rw [h, beq_self_eq_true]
    rfl

/-! ## The similarity tile -/

theorem dot_lhs_0 (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem dot_lhs_1 (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k
theorem dot_rhs_0 (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k
theorem dot_rhs_1 (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The product into the zero tile, read at (r, q): the inner product of row r of the left operand with column q of
    the right one. -/
theorem dot_apply (A : FVec Ideal S1024x512 .bf16) (B : FVec Ideal S512x512 .bf16) (r : Fin 1024) (q : Fin 512) :
    matmul dot_S1024x512_S512x512_S1024x512_1_0_0_1_n_n none A B (constant S1024x512 .f32 0x00000000#32) (ix2 r q)
      = ∑ d : Fin 512, A (ix2 r d) * B (ix2 d q) := by
  simp only [matmul]
  rw [Ideal.matmul_constant_zero_apply,
    ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r q)
      ((contrEquiv1 dot_S1024x512_S512x512_S1024x512_1_0_0_1_n_n 512 rfl rfl).symm k) = ix2 r k :=
    funext fun a => Fin.ext (by
      match a with
      | ⟨0, _⟩ => exact dot_lhs_0 _ _
      | ⟨1, _⟩ => exact (dot_lhs_1 _ _).trans hk)
  have er : dot_S1024x512_S512x512_S1024x512_1_0_0_1_n_n.rhsIdx (ix2 r q)
      ((contrEquiv1 dot_S1024x512_S512x512_S1024x512_1_0_0_1_n_n 512 rfl rfl).symm k) = ix2 k q :=
    funext fun a => Fin.ext (by
      match a with
      | ⟨0, _⟩ => exact (dot_rhs_0 _ _).trans hk
      | ⟨1, _⟩ => exact dot_rhs_1 _ _)
  rw [el, er]

/-- The similarity tile at (r, q): the inner product of row r of the left tile with key row q, normalised. -/
theorem pay6_apply (an : Vec Ideal S1024x512 .f32) (x2 : Vec Ideal S512x512 .f32) (r : Fin 1024) (q : Fin 512) :
    k0_pay6 (F := Ideal) an x2 (ix2 r q) = ∑ d : Fin 512, an (ix2 r d) * nrm (fun d' => x2 (ix2 q d')) d := by
  unfold k0_pay6
  rw [shapeCast_self]
  refine (dot_apply _ _ r q).trans (Finset.sum_congr rfl fun d _ => ?_)
  refine congrArg (an (ix2 r d) * ·) ?_
  refine (transpose_ix2_apply _ transposes_S512x512_p1_0_S512x512 d q).trans ?_
  exact normalise_apply x2 _ _ _ _ _ q d

/-! ## One key tile added to the running sum -/

/-- One key tile added to the running sum, at row r: the self pair of row `1024 i₀ + r` in key tile `i₁` is the key
    `q` with `(i₁ mod 8) 512 + q = 1024 i₀ + r`. -/
theorem step_apply (i : grid0.Coords) (an : Vec Ideal S1024x512 .f32) (x2 : Vec Ideal S512x512 .f32)
    (acc : Vec Ideal S1024x1 .f32) (r : Fin 1024) :
    step (F := Ideal) i an x2 acc (ix2 r (0 : Fin 1))
      = acc (ix2 r (0 : Fin 1))
        + ∑ q : Fin 512, negT ((i 0).val * 1024 + r.val = ((i 1).val % 8) * 512 + q.val)
            (fun d => an (ix2 r d)) (fun d => x2 (ix2 q d)) := by
  unfold step k0_pay1
  rw [shapeCast_self]
  refine (addf_apply _ _ _).trans ?_
  refine congrArg (acc (ix2 r (0 : Fin 1)) + ·) ?_
  refine (rowSum_apply (n := 1024) (m := 512) _ reduces_S1024x512_S1024 shapeCasts_S1024_S1024x1 _ _ r).trans ?_
  refine Finset.sum_congr rfl fun q _ => ?_
  show Ideal.exp (Ideal.div (Scalar.select (k0_pay7 i (ix2 r q)) (Ideal.ofBits .f32 0xCE6E6B28#32)
    (k0_pay6 (F := Ideal) an x2 (ix2 r q))) (Ideal.ofBits .f32 0x3E4CCCCD#32)) = _
  unfold negT
  refine congrArg (fun s => Ideal.exp (Ideal.div s tmp)) ?_
  rw [pay6_apply, pay7_apply]
  unfold Scalar.select
  exact if_congr (mask_iff (i 0).val ⟨(i 1).val, (i 1).isLt⟩ r.val q.val (i 0).isLt r.isLt q.isLt) rfl rfl

end Cert.KernelIdeal.PayIdx

end
-- ==== Proof.KernelIdeal.KState.lean ====
/-
  The state carried across the points of a row tile, in closed form, row by row.
-/
import proofs.«110455_j16295105921245_1_alg».proof.Proof.KernelIdeal.Data
import proofs.«110455_j16295105921245_1_alg».proof.Proof.KernelIdeal.PayIdx
import proofs.«110455_j16295105921245_1_alg».proof.Proof.RowSpec
import Idealize.ShloMosaic.Lib.ValueIdx
import Idealize.ShloMosaic.Lib.Pipeline.Value
import Idealize.ShloMosaic.Lib.StableHlo.Run

set_option maxRecDepth 16384

noncomputable section

namespace Cert.KernelIdeal.KState

open Idealize.ShloMosaic Idealize.ShloMosaic.TcCoe Idealize.ShloMosaic.ValueIdx
open Idealize.SL Idealize.SL.Sem
open scoped BigOperators
open Cert.KernelIdeal Cert.KernelIdeal.Gen Cert.KernelIdeal.Body Cert.KernelIdeal.PayIdx Cert.RowSpec

variable (m : (ℓ : Loc nD τ sig) → Buf (Elt Ideal) ℓ)

/-- The anchor array, the positive array and the flattened views as the region finds them. -/
abbrev arrA (c : Dev nD) : Vec Ideal S4096x512 .f32 := V m c main_arg0
abbrev arrP (c : Dev nD) : Vec Ideal S4096x512 .f32 := V m c main_arg1
abbrev arrVf (c : Dev nD) : Vec Ideal S12288x512 .f32 := V m c main_v0

/-- The flattened views are the views re-laid in row-major order before the region. -/
theorem arrVf_eq (c : Dev nD) :
    arrVf m c = shapeCast S12288x512 (m ((c : Thread nD τ).loc main_arg2) : Vec Ideal S3x4096x512 .f32)
      shapeCasts_S3x4096x512_S12288x512 := by
  dsimp only [arrVf, Gen.V, Gen.V0]
  simp only [List.flatten_cons, List.flatten_nil, List.append_nil]
  show StableHlo.after hostOps0 (fun b => m (c, b)) (Proc.devRef .tc main_v0) = _
  after_results
  rfl

/-- The flattened views are the views re-laid: row n is key `n mod 4096` of view `n / 4096`. -/
theorem arrVf_apply (c : Dev nD) (n : Fin 12288) (d : Fin 512) :
    arrVf m c (ix2 n d)
      = (m ((c : Thread nD τ).loc main_arg2) : Vec Ideal S3x4096x512 .f32)
          (ix3 (⟨n.val / 4096, by omega⟩ : Fin 3) (⟨n.val % 4096, by omega⟩ : Fin 4096) d) := by
  rw [arrVf_eq]
  refine shapeCast_apply (s := S3x4096x512) (t := S12288x512) _ _ _ _ ?_
  show (S3x4096x512.rowMajor _).val = (S12288x512.rowMajor _).val
  rw [Shape.rowMajor_val_three, Shape.rowMajor_val_two]
  show (n.val / 4096 * 4096 + n.val % 4096) * 512 + d.val = n.val * 512 + d.val
  omega

/-! ## The blocks read the arrays at the rows of their tiles -/

/-- Negative terms agree when their self-pair conditions, query rows and key rows agree. -/
theorem negT_congr {p q : Prop} [Decidable p] [Decidable q] (h : p ↔ q) {xn xn' y y' : Fin 512 → EReal}
    (hx : xn = xn') (hy : y = y') : negT p xn y = negT q xn' y' := by
  subst hx hy
  unfold negT
  rw [if_congr h rfl rfl]

/-- The block indices and the grid's coordinates at every point: point `t` is key tile `t mod 24` of row tile `t / 24`. -/
theorem idx_facts : ∀ t : Fin grid0.N,
    win0_0.index t (0 : Fin 2) = t.val / 24 ∧ win0_0.index t (1 : Fin 2) = 0
    ∧ win0_1.index t (0 : Fin 2) = t.val / 24 ∧ win0_1.index t (1 : Fin 2) = 0
    ∧ win0_2.index t (0 : Fin 2) = t.val % 24 ∧ win0_2.index t (1 : Fin 2) = 0
    ∧ (grid0.coords t (0 : Fin 2)).val = t.val / 24 ∧ (grid0.coords t (1 : Fin 2)).val = t.val % 24 := by
  decide +kernel

/-- The anchor tile at a point of row tile `i` is rows `1024 i … 1024 i + 1023` of the anchor array. -/
theorem xa_apply (c : Dev nD) (t : Fin cfg0.N) (i : Fin 4) (hi : t.val / 24 = i.val) (r : Fin 1024) (d : Fin 512) :
    xa m c t (ix2 r d) = arrA m c (ix2 (⟨1024 * i.val + r.val, by omega⟩ : Fin 4096) d) := by
  obtain ⟨e0, e1, -, -, -, -, -, -⟩ := idx_facts t
  show V m c main_arg0 (((cfg0.win 0).blk t).view.emb (ix2 r d))
    = V m c main_arg0 (ix2 (⟨1024 * i.val + r.val, by omega⟩ : Fin 4096) d)
  refine congrArg (V m c main_arg0) ?_
  funext a; apply Fin.ext
  match a with
  | ⟨0, _⟩ => show win0_0.index t (0 : Fin 2) * 1024 + 1 * r.val = 1024 * i.val + r.val; omega
  | ⟨1, _⟩ => show win0_0.index t (1 : Fin 2) * 512 + 1 * d.val = d.val; omega

/-- The positive tile likewise. -/
theorem xp_apply (c : Dev nD) (t : Fin cfg0.N) (i : Fin 4) (hi : t.val / 24 = i.val) (r : Fin 1024) (d : Fin 512) :
    xp m c t (ix2 r d) = arrP m c (ix2 (⟨1024 * i.val + r.val, by omega⟩ : Fin 4096) d) := by
  obtain ⟨-, -, e0, e1, -, -, -, -⟩ := idx_facts t
  show V m c main_arg1 (((cfg0.win 1).blk t).view.emb (ix2 r d))
    = V m c main_arg1 (ix2 (⟨1024 * i.val + r.val, by omega⟩ : Fin 4096) d)
  refine congrArg (V m c main_arg1) ?_
  funext a; apply Fin.ext
  match a with
  | ⟨0, _⟩ => show win0_1.index t (0 : Fin 2) * 1024 + 1 * r.val = 1024 * i.val + r.val; omega
  | ⟨1, _⟩ => show win0_1.index t (1 : Fin 2) * 512 + 1 * d.val = d.val; omega

/-- The key tile at the point of key tile `j` is rows `512 j … 512 j + 511` of the flattened views. -/
theorem xv_apply (c : Dev nD) (t : Fin cfg0.N) (j : Fin 24) (hj : t.val % 24 = j.val) (q : Fin 512) (d : Fin 512) :
    xv m c t (ix2 q d) = arrVf m c (ix2 (⟨512 * j.val + q.val, by omega⟩ : Fin 12288) d) := by
  obtain ⟨-, -, -, -, e0, e1, -, -⟩ := idx_facts t
  show V m c main_v0 (((cfg0.win 2).blk t).view.emb (ix2 q d))
    = V m c main_v0 (ix2 (⟨512 * j.val + q.val, by omega⟩ : Fin 12288) d)
  refine congrArg (V m c main_v0) ?_
  funext a; apply Fin.ext
  match a with
  | ⟨0, _⟩ => show win0_2.index t (0 : Fin 2) * 512 + 1 * q.val = 512 * j.val + q.val; omega
  | ⟨1, _⟩ => show win0_2.index t (1 : Fin 2) * 512 + 1 * d.val = d.val; omega

/-! ## One key tile's sum, and the state in closed form -/

/-- The sum one point adds, over an anchor tile already normalised row by row, is the key tile's contribution. -/
theorem tile_eq (c : Dev nD) (t : Fin cfg0.N) (i : Fin 4) (k : ℕ) (hk : k < 24) (hi : t.val / 24 = i.val)
    (hj : t.val % 24 = k) (r : Fin 1024) (an : Vec Ideal S1024x512 .f32)
    (han : ∀ d : Fin 512, an (ix2 r d) = nrm (rowOf (arrA m c) ⟨1024 * i.val + r.val, by omega⟩) d) :
    (∑ q : Fin 512, negT ((grid0.coords t 0).val * 1024 + r.val = ((grid0.coords t 1).val % 8) * 512 + q.val)
        (fun d => an (ix2 r d)) (fun d => xv m c t (ix2 q d)))
      = tileSum (arrA m c) (arrVf m c) ⟨1024 * i.val + r.val, by omega⟩ k := by
  obtain ⟨-, -, -, -, -, -, e6, e7⟩ := idx_facts t
  unfold tileSum
  refine Finset.sum_congr rfl fun q _ => negT_congr ?_ (funext han) (funext fun d => ?_)
  · show (grid0.coords t (0 : Fin 2)).val * 1024 + r.val = (grid0.coords t (1 : Fin 2)).val % 8 * 512 + q.val
      ↔ 1024 * i.val + r.val = k % 8 * 512 + q.val
    rw [e6, e7, hi, hj]
    constructor <;> intro hh <;> omega
  · show xv m c t (ix2 q d) = arrVf m c (ix2 (⟨(k * 512 + q.val) % 12288, _⟩ : Fin 12288) d)
    rw [xv_apply m c t ⟨k, hk⟩ hj q d]
    refine congrArg (fun z : Fin 12288 => arrVf m c (ix2 z d)) (Fin.ext ?_)
    show 512 * k + q.val = (k * 512 + q.val) % 12288
    omega

/-- A later point of a row tile keeps the first two components and adds one key tile. -/
theorem st_succ (c : Dev nD) (n : ℕ) (hn : n + 1 < cfg0.N) (h0 : ¬ (n + 1) % 24 = 0) :
    st m c (n + 1) hn = next m c ⟨n + 1, hn⟩ (st m c n (Nat.lt_of_succ_lt hn)) := if_neg h0

/-- The state after key tile `k` of row tile `i`, at row `r` of the tile: the row's positive term, its normalised
    anchor row, and the key tiles `0 … k` accumulated from zero. -/
theorem st_inv (c : Dev nD) (i : Fin 4) (r : Fin 1024) :
    ∀ (k : ℕ), k < 24 → ∀ (n : ℕ) (h : n < cfg0.N), n = 24 * i.val + k →
      (st m c n h).1 (ix2 r (0 : Fin 1))
          = posE (rowOf (arrA m c) ⟨1024 * i.val + r.val, by omega⟩) (rowOf (arrP m c) ⟨1024 * i.val + r.val, by omega⟩)
      ∧ (∀ d : Fin 512, (st m c n h).2.1 (ix2 r d) = nrm (rowOf (arrA m c) ⟨1024 * i.val + r.val, by omega⟩) d)
      ∧ (st m c n h).2.2 (ix2 r (0 : Fin 1))
          = accF (tileSum (arrA m c) (arrVf m c) ⟨1024 * i.val + r.val, by omega⟩) k := by
  intro k
  induction k with
  | zero =>
    intro _ n h hn
    have h0 : (⟨n, h⟩ : Fin cfg0.N).val % 24 = 0 := by show n % 24 = 0; omega
    have hi : (⟨n, h⟩ : Fin cfg0.N).val / 24 = i.val := by show n / 24 = i.val; omega
    rw [show st m c n h = first m c ⟨n, h⟩ from st_first m c ⟨n, h⟩ h0]
    have hA : (fun d => xa m c ⟨n, h⟩ (ix2 r d)) = rowOf (arrA m c) ⟨1024 * i.val + r.val, by omega⟩ :=
      funext fun d => xa_apply m c ⟨n, h⟩ i hi r d
    have hP : (fun d => xp m c ⟨n, h⟩ (ix2 r d)) = rowOf (arrP m c) ⟨1024 * i.val + r.val, by omega⟩ :=
      funext fun d => xp_apply m c ⟨n, h⟩ i hi r d
    have h3 : ∀ d : Fin 512, k0_pay3 (xa m c ⟨n, h⟩) (ix2 r d) = nrm (rowOf (arrA m c) ⟨1024 * i.val + r.val, by omega⟩) d := by
      intro d
      rw [pay3_apply, hA]
    refine ⟨?_, h3, ?_⟩
    · show k0_pay4 (xa m c ⟨n, h⟩) (xp m c ⟨n, h⟩) (ix2 r (0 : Fin 1)) = _
      rw [pay4_apply, hA, hP]
    · show step (grid0.coords ⟨n, h⟩) (k0_pay3 (xa m c ⟨n, h⟩)) (xv m c ⟨n, h⟩) (k0_pay5 (F := Ideal)) (ix2 r (0 : Fin 1)) = _
      rw [step_apply, pay5_apply]
      show 0 + _ = 0 + tileSum (arrA m c) (arrVf m c) ⟨1024 * i.val + r.val, _⟩ 0
      refine congrArg (fun z : EReal => 0 + z) ?_
      exact tile_eq m c ⟨n, h⟩ i 0 (by omega) hi h0 r (k0_pay3 (xa m c ⟨n, h⟩)) h3
  | succ k ih =>
    intro hk n h hn
    obtain ⟨n', rfl⟩ : ∃ n', n = n' + 1 := ⟨24 * i.val + k, by omega⟩
    have h0 : ¬ (n' + 1) % 24 = 0 := by omega
    obtain ⟨ih1, ih2, ih3⟩ := ih (by omega) n' (Nat.lt_of_succ_lt h) (by omega)
    rw [st_succ m c n' h h0]
    refine ⟨ih1, ih2, ?_⟩
    show step (grid0.coords ⟨n' + 1, h⟩) (st m c n' (Nat.lt_of_succ_lt h)).2.1 (xv m c ⟨n' + 1, h⟩)
      (st m c n' (Nat.lt_of_succ_lt h)).2.2 (ix2 r (0 : Fin 1)) = _
    rw [step_apply, ih3]
    show _ = accF (tileSum (arrA m c) (arrVf m c) ⟨1024 * i.val + r.val, _⟩) k
      + tileSum (arrA m c) (arrVf m c) ⟨1024 * i.val + r.val, _⟩ (k + 1)
    refine congrArg (fun z : EReal => accF (tileSum (arrA m c) (arrVf m c) ⟨1024 * i.val + r.val, _⟩) k + z) ?_
    exact tile_eq m c ⟨n' + 1, h⟩ i (k + 1) hk (by show (n' + 1) / 24 = i.val; omega)
      (by show (n' + 1) % 24 = k + 1; omega) r (st m c n' (Nat.lt_of_succ_lt h)).2.1 ih2

/-- After point `24 i + j` the first component holds the positive terms of row tile `i`'s rows. -/
theorem st_pos (c : Dev nD) (i : Fin 4) (j : Fin 24) (r : Fin 1024) (h : 24 * i.val + j.val < cfg0.N) :
    (st m c (24 * i.val + j.val) h).1 (ix2 r (0 : Fin 1))
      = posE (rowOf (arrA m c) ⟨1024 * i.val + r.val, by omega⟩) (rowOf (arrP m c) ⟨1024 * i.val + r.val, by omega⟩) :=
  (st_inv m c i r j.val j.isLt (24 * i.val + j.val) h rfl).1

/-- … and the third the sum of the key tiles `0 … j`'s contributions, accumulated from zero. -/
theorem st_acc (c : Dev nD) (i : Fin 4) (j : Fin 24) (r : Fin 1024) (h : 24 * i.val + j.val < cfg0.N) :
    (st m c (24 * i.val + j.val) h).2.2 (ix2 r (0 : Fin 1))
      = accF (tileSum (arrA m c) (arrVf m c) ⟨1024 * i.val + r.val, by omega⟩) j.val :=
  (st_inv m c i r j.val j.isLt (24 * i.val + j.val) h rfl).2.2

end Cert.KernelIdeal.KState

end
-- ==== Proof.KernelIdeal.KFinal.lean ====
/-
  The two result arrays after the region, as functions of the arrays the region finds.
-/
import proofs.«110455_j16295105921245_1_alg».proof.Proof.KernelIdeal.Data
import proofs.«110455_j16295105921245_1_alg».proof.Proof.KernelIdeal.KState
import proofs.«110455_j16295105921245_1_alg».proof.Proof.RowSpec
import Idealize.ShloMosaic.Lib.ValueIdx
import Idealize.ShloMosaic.Lib.Pipeline.Value

set_option maxRecDepth 16384

noncomputable section

namespace Cert.KernelIdeal.KFinal

open Idealize.ShloMosaic Idealize.ShloMosaic.TcCoe Idealize.ShloMosaic.ValueIdx
open Idealize.SL Idealize.SL.Sem
open scoped BigOperators
open Cert.KernelIdeal Cert.KernelIdeal.Gen Cert.KernelIdeal.Body Cert.KernelIdeal.KState Cert.RowSpec

variable (m : (ℓ : Loc nD τ sig) → Buf (Elt Ideal) ℓ)

/-- The two result windows' block indices, decided over the grid: the row tile on the first axis, zero on the second. -/
theorem idx_facts3 : ∀ t : Fin cfg0.N, win0_3.index t (0 : Fin 2) = t.val / 24 ∧ win0_3.index t (1 : Fin 2) = 0 :=
  (by decide +kernel : ∀ t : Fin grid0.N, _)

/-- The same for the second result window. -/
theorem idx_facts4 : ∀ t : Fin cfg0.N, win0_4.index t (0 : Fin 2) = t.val / 24 ∧ win0_4.index t (1 : Fin 2) = 0 :=
  (by decide +kernel : ∀ t : Fin grid0.N, _)

/-- The state depends on the point only through its number. -/
theorem st_congr (c : Dev nD) {n n' : ℕ} (e : n = n') (h : n < cfg0.N) (h' : n' < cfg0.N) :
    st m c n h = st m c n' h' := by
  subst e; rfl

/-- The first result's specification at an index, through any name of its row. -/
theorem peK_apply (a p : Vec Ideal S4096x512 .f32) (idx : S4096x1.Idx) (b : Fin 4096) (hb : b.val = (idx 0).val) :
    peK a p idx = posE (rowOf a b) (rowOf p b) := by
  obtain rfl : b = ⟨(idx 0).val, idx2_lt0 idx⟩ := Fin.ext hb
  rfl

/-- The second result's specification at an index, through any name of its row. -/
theorem neK_apply (a : Vec Ideal S4096x512 .f32) (vf : Vec Ideal S12288x512 .f32) (idx : S4096x1.Idx) (b : Fin 4096)
    (hb : b.val = (idx 0).val) : neK a vf idx = accF (tileSum a vf b) 23 := by
  obtain rfl : b = ⟨(idx 0).val, idx2_lt0 idx⟩ := Fin.ext hb
  rfl

/-- At the last point of a row tile, what is written back to the first result array is that tile's block of the
    rows' positive terms: the block's row `r` is row `1024 i + r` of the array. -/
theorem flushed3_eq (c : Dev nD) (t : Fin cfg0.N) (hf : (cfg0.win 3).flush t = true) :
    (dats m 0 c).flushed 3 t = ((cfg0.win 3).blk t).view.read (Elt Ideal) (peK (arrA m c) (arrP m c)) := by
  show (cfg0.win 3).cut (grid0.coords t) ((dats m 0 c).after 3 t) = _
  rw [after_3]
  have h23 : t.val % 24 = 23 := (flush0_3 t).mp hf
  have hN : t.val < 96 := lt_of_lt_of_eq t.isLt N_0
  obtain ⟨e0, e1⟩ := idx_facts3 t
  obtain ⟨i, hi⟩ : ∃ i : Fin 4, t.val = 24 * i.val + 23 := ⟨⟨t.val / 24, by omega⟩, by show t.val = 24 * (t.val / 24) + 23; omega⟩
  funext y
  have hy0 : (y 0).val < 1024 := (y 0).isLt
  have hy1 : (y 1).val < 1 := (y 1).isLt
  have hx : (cfg0.win 3).xinj (grid0.coords t) y = ix2 (⟨(y 0).val, hy0⟩ : Fin 1024) (0 : Fin 1) := by
    funext a
    match a with
    | ⟨0, _⟩ => rfl
    | ⟨1, _⟩ => exact Fin.ext (by show (y 1).val = 0; omega)
  have hemb : ((((cfg0.win 3).blk t).view.emb y) 0).val = 1024 * i.val + (y 0).val := by
    show win0_3.index t (0 : Fin 2) * 1024 + 1 * (y 0).val = _
    rw [e0]; omega
  have h' : 24 * i.val + (⟨23, by omega⟩ : Fin 24).val < cfg0.N := lt_of_eq_of_lt hi.symm t.isLt
  show (st m c t.val t.isLt).1 ((cfg0.win 3).xinj (grid0.coords t) y) = peK (arrA m c) (arrP m c) (((cfg0.win 3).blk t).view.emb y)
  rw [hx]
  refine (congrArg (fun s => s.1 (ix2 (⟨(y 0).val, hy0⟩ : Fin 1024) (0 : Fin 1))) (st_congr m c hi t.isLt h')).trans ?_
  refine (st_pos m c i ⟨23, by omega⟩ ⟨(y 0).val, hy0⟩ h').trans ?_
  exact (peK_apply (arrA m c) (arrP m c) _ _ hemb.symm).symm

/-- At the last point of a row tile, what is written back to the second result array is that tile's block of the
    rows' negative sums, all 24 key tiles accumulated. -/
theorem flushed4_eq (c : Dev nD) (t : Fin cfg0.N) (hf : (cfg0.win 4).flush t = true) :
    (dats m 0 c).flushed 4 t = ((cfg0.win 4).blk t).view.read (Elt Ideal) (neK (arrA m c) (arrVf m c)) := by
  show (cfg0.win 4).cut (grid0.coords t) ((dats m 0 c).after 4 t) = _
  rw [after_4]
  have h23 : t.val % 24 = 23 := (flush0_4 t).mp hf
  have hN : t.val < 96 := lt_of_lt_of_eq t.isLt N_0
  obtain ⟨e0, e1⟩ := idx_facts4 t
  obtain ⟨i, hi⟩ : ∃ i : Fin 4, t.val = 24 * i.val + 23 := ⟨⟨t.val / 24, by omega⟩, by show t.val = 24 * (t.val / 24) + 23; omega⟩
  funext y
  have hy0 : (y 0).val < 1024 := (y 0).isLt
  have hy1 : (y 1).val < 1 := (y 1).isLt
  have hx : (cfg0.win 4).xinj (grid0.coords t) y = ix2 (⟨(y 0).val, hy0⟩ : Fin 1024) (0 : Fin 1) := by
    funext a
    match a with
    | ⟨0, _⟩ => rfl
    | ⟨1, _⟩ => exact Fin.ext (by show (y 1).val = 0; omega)
  have hemb : ((((cfg0.win 4).blk t).view.emb y) 0).val = 1024 * i.val + (y 0).val := by
    show win0_4.index t (0 : Fin 2) * 1024 + 1 * (y 0).val = _
    rw [e0]; omega
  have h' : 24 * i.val + (⟨23, by omega⟩ : Fin 24).val < cfg0.N := lt_of_eq_of_lt hi.symm t.isLt
  show (st m c t.val t.isLt).2.2 ((cfg0.win 4).xinj (grid0.coords t) y) = neK (arrA m c) (arrVf m c) (((cfg0.win 4).blk t).view.emb y)
  rw [hx]
  refine (congrArg (fun s => s.2.2 (ix2 (⟨(y 0).val, hy0⟩ : Fin 1024) (0 : Fin 1))) (st_congr m c hi t.isLt h')).trans ?_
  refine (st_acc m c i ⟨23, by omega⟩ ⟨(y 0).val, hy0⟩ h').trans ?_
  exact (neK_apply (arrA m c) (arrVf m c) _ _ hemb.symm).symm

/-- An index of the first result array is in point `t`'s block iff each coordinate is in the block's range on its axis. -/
theorem mem_blk3 (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v1_0).slice (win0_3.rect t)).set ↔ _
  rw [View.set_slice_whole, Rect.mem_set_unit]
  exact Iff.rfl

/-- The same for the second result array. -/
theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v1_1).slice (win0_4.rect t)).set ↔ _
  rw [View.set_slice_whole, Rect.mem_set_unit]
  exact Iff.rfl

/-- Row `b` lies in the block written back at the last point of its row tile. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have ht : 24 * ((i 0).val / 1024) + 23 < cfg0.N := by rw [show cfg0.N = 96 from N_0]; omega
  refine ⟨⟨24 * ((i 0).val / 1024) + 23, ht⟩, (flush0_3 _).mpr (by show (24 * ((i 0).val / 1024) + 23) % 24 = 23; omega), ?_⟩
  obtain ⟨e0, e1⟩ := idx_facts3 ⟨24 * ((i 0).val / 1024) + 23, ht⟩
  have e0' : win0_3.index ⟨24 * ((i 0).val / 1024) + 23, ht⟩ (0 : Fin 2) = (i 0).val / 1024 := by
    rw [e0]; show (24 * ((i 0).val / 1024) + 23) / 24 = (i 0).val / 1024; omega
  rw [mem_blk3]
  intro a
  match a with
  | ⟨0, _⟩ => show win0_3.index ⟨24 * ((i 0).val / 1024) + 23, ht⟩ (0 : Fin 2) * 1024 ≤ (i 0).val ∧ (i 0).val < win0_3.index ⟨24 * ((i 0).val / 1024) + 23, ht⟩ (0 : Fin 2) * 1024 + 1024; rw [e0']; omega
  | ⟨1, _⟩ => show win0_3.index ⟨24 * ((i 0).val / 1024) + 23, ht⟩ (1 : Fin 2) * 1 ≤ (i 1).val ∧ (i 1).val < win0_3.index ⟨24 * ((i 0).val / 1024) + 23, ht⟩ (1 : Fin 2) * 1 + 1; rw [e1]; omega

/-- The same for the second result array. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have ht : 24 * ((i 0).val / 1024) + 23 < cfg0.N := by rw [show cfg0.N = 96 from N_0]; omega
  refine ⟨⟨24 * ((i 0).val / 1024) + 23, ht⟩, (flush0_4 _).mpr (by show (24 * ((i 0).val / 1024) + 23) % 24 = 23; omega), ?_⟩
  obtain ⟨e0, e1⟩ := idx_facts4 ⟨24 * ((i 0).val / 1024) + 23, ht⟩
  have e0' : win0_4.index ⟨24 * ((i 0).val / 1024) + 23, ht⟩ (0 : Fin 2) = (i 0).val / 1024 := by
    rw [e0]; show (24 * ((i 0).val / 1024) + 23) / 24 = (i 0).val / 1024; omega
  rw [mem_blk4]
  intro a
  match a with
  | ⟨0, _⟩ => show win0_4.index ⟨24 * ((i 0).val / 1024) + 23, ht⟩ (0 : Fin 2) * 1024 ≤ (i 0).val ∧ (i 0).val < win0_4.index ⟨24 * ((i 0).val / 1024) + 23, ht⟩ (0 : Fin 2) * 1024 + 1024; rw [e0']; omega
  | ⟨1, _⟩ => show win0_4.index ⟨24 * ((i 0).val / 1024) + 23, ht⟩ (1 : Fin 2) * 1 ≤ (i 1).val ∧ (i 1).val < win0_4.index ⟨24 * ((i 0).val / 1024) + 23, ht⟩ (1 : Fin 2) * 1 + 1; rw [e1]; omega

/-- The first result array ends at each row's positive term. -/
theorem final3 (c : Dev nD) : (dats m 0 c).arrAt 3 cfg0.N = peK (arrA m c) (arrP m c) :=
  (dats m 0 c).arrAt_eq_of_cover 3 (peK (arrA m c) (arrP m c)) (flushed3_eq m c) (cover3)

/-- The second at each row's negative sum, accumulated tile by tile. -/
theorem final4 (c : Dev nD) : (dats m 0 c).arrAt 4 cfg0.N = neK (arrA m c) (arrVf m c) :=
  (dats m 0 c).arrAt_eq_of_cover 4 (neK (arrA m c) (arrVf m c)) (flushed4_eq m c) (cover4)

end Cert.KernelIdeal.KFinal

end
-- ==== Proof.KernelIdeal.KTail.lean ====
/-
  The host operations after the region: the loss from the two result arrays.
-/
import proofs.«110455_j16295105921245_1_alg».proof.Proof.KernelIdeal.Data
import proofs.«110455_j16295105921245_1_alg».proof.Proof.RowSpec
import Idealize.ShloMosaic.Lib.ValueIdx
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.KTail

open Idealize.ShloMosaic Idealize.ShloMosaic.TcCoe Idealize.ShloMosaic.ValueIdx
open Idealize.SL Idealize.SL.Sem
open scoped BigOperators
open Cert.KernelIdeal Cert.KernelIdeal.Gen Cert.KernelIdeal.Body Cert.RowSpec

variable (m : (ℓ : Loc nD τ sig) → Buf (Elt Ideal) ℓ)

/-- The program's result buffer after the host operations that follow the region, when the two result arrays end at
    `pe` and `ne`: the loss over their rows. -/
theorem tail_eq (c : Dev nD) (pe ne : Vec Ideal S4096x1 .f32)
    (h3 : (dats m 0 c).arrAt 3 cfg0.N = pe) (h4 : (dats m 0 c).arrAt 4 cfg0.N = ne) :
    Pipeline.afterTail₀ cfgs (dats m) 0 (V0 m) [hostOps1] c main_v9
      = fun _ => loss (fun b => pe (ix2 b (0 : Fin 1))) (fun b => ne (ix2 b (0 : Fin 1))) := by
  -- The eleven operations, each result read off at its own buffer; the two result arrays are `pe` and `ne`.
  unfold Pipeline.afterTail₀
  show StableHlo.after hostOps1 _ (Proc.devRef .tc main_v9) = _
  after_results
  have e3 : Pipeline.withArrays (cfgs 0).spec c (V0 m c) (fun w => (dats m 0 c).arrAt w (cfgs 0).N)
      (Proc.devRef .tc main_v1_0) = pe :=
    (Pipeline.withArrays_arr spec0 launch0.win.arr_inj c _ _ 3).trans h3
  have e4 : Pipeline.withArrays (cfgs 0).spec c (V0 m c) (fun w => (dats m 0 c).arrAt w (cfgs 0).N)
      (Proc.devRef .tc main_v1_1) = ne :=
    (Pipeline.withArrays_arr spec0 launch0.win.arr_inj c _ _ 4).trans h4
  rw [e3, e4]
  funext j
  -- At the one scalar index: minus the quotient, by the row count, of the sum from zero of the rows' logarithms.
  show -(Ideal.div (Ideal.hostReduceAdd reducesTo_S4096x1_S_d0_1
      (Host.log (Host.divf pe (addf (addf pe ne)
        (broadcastInDim S4096x1 ![] bcast_S_S4096x1 (constant (F := Ideal) S_ .f32 0x322BCC77#32)))))
      (Ideal.ofBits .f32 0x00000000#32) j) (Ideal.ofBits .f32 0x45800000#32)) = _
  -- The sum over both axes of [4096, 1] is the sum over the rows, the second coordinate being 0.
  rw [Ideal.hostReduceAdd_total _ (fun b => b.elim0), Ideal.ofBits_zero_f32, sum_idx2]
  unfold loss
  refine congrArg (fun s => -(Ideal.div (0 + s) cntB)) ?_
  refine Finset.sum_congr rfl fun b _ => ?_
  rw [Fin.sum_univ_one]
  -- Row b: log (pe / (pe + ne + epsL)), the broadcast scalar read at the row.
  show Ideal.log (Ideal.div (pe (ix2 b 0)) (pe (ix2 b 0) + ne (ix2 b 0)
      + broadcastInDim S4096x1 ![] bcast_S_S4096x1 (constant (F := Ideal) S_ .f32 0x322BCC77#32) (ix2 b 0))) = _
  rw [broadcastInDim_scalar_apply, constant_apply]
  rfl

end Cert.KernelIdeal.KTail

end
-- ==== Proof.Reference.RefValue.lean ====
/-
  The reference's result as a function of the argument arrays.
-/
import proofs.«110455_j16295105921245_1_alg».proof.Proof.Gen.ReferenceIdeal.Run
import proofs.«110455_j16295105921245_1_alg».proof.Proof.Gen.ReferenceIdeal.Read
import proofs.«110455_j16295105921245_1_alg».proof.Proof.RowSpec

noncomputable section

namespace Cert.ReferenceIdeal.RefValue

open scoped BigOperators
open Cert.ReferenceIdeal Cert.ReferenceIdeal.Gen Cert.ReferenceIdeal.Read Cert.RowSpec
open Idealize.ShloMosaic Idealize.ShloMosaic.ValueIdx Idealize.ShloMosaic.StableHlo Idealize.ShloMosaic.TcCoe Idealize.SL.Sem

/-! ## Sums over index sets, by coordinates -/

/-- A rank-1 index set is its coordinate's range. -/
def idxEquiv1 {n : ℕ} : (⟨1, ![n]⟩ : Shape).Idx ≃ Fin n where
  toFun i := i 0
  invFun b := ix1 b
  left_inv i := (eq_ix1 i).symm
  right_inv _ := rfl

theorem sum_idx1 {M : Type*} [AddCommMonoid M] {n : ℕ} (f : (⟨1, ![n]⟩ : Shape).Idx → M) :
    ∑ i, f i = ∑ b : Fin n, f (ix1 b) := by
  rw [← Equiv.sum_comp (idxEquiv1 (n := n)).symm f]
  rfl

/-- A rank-3 index set is the product of its coordinates' ranges. -/
def idxEquiv3 {n0 n1 n2 : ℕ} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The normalised rows -/

theorem v1_at (a : Vec Ideal S4096x512 .f32) (b : Fin 4096) :
    val_main_v1 (F := Ideal) a (ix1 b) = ∑ d : Fin 512, a (ix2 b d) * a (ix2 b d) := by
  rw [val_main_v1_apply, val_main_cst_apply, Ideal.ofBits_def, Ideal.ofBits_zero_f32, zero_add]
  refine Finset.sum_congr rfl fun d _ => ?_
  have h : idx_main_v1 (ix1 b) d = ix2 b d := by
    funext t; match t with | ⟨0, _⟩ => rfl | ⟨1, _⟩ => rfl
  rw [h, val_main_v0_apply]
  rfl

theorem v5_at (a : Vec Ideal S4096x512 .f32) (b : Fin 4096) (z : Fin 1) :
    val_main_v5 (F := Ideal) a (ix2 b z) = den (rowOf a b) := by
  rw [val_main_v5_apply, val_main_v3_apply, val_main_v2_apply, val_main_v4_apply, val_main_cst_0_apply]
  have h : idx_main_v2 (ix2 b z) = ix1 b := by
    funext t; match t with | ⟨0, _⟩ => rfl
  rw [h, v1_at]
  rfl

theorem v7_at (a : Vec Ideal S4096x512 .f32) (b : Fin 4096) (d : Fin 512) :
    val_main_v7 (F := Ideal) a (ix2 b d) = nrm (rowOf a b) d := by
  rw [val_main_v7_apply, val_main_v6_apply]
  have h : idx_main_v6 (ix2 b d) = ix2 b (0 : Fin 1) := by
    funext t; match t with | ⟨0, _⟩ => rfl | ⟨1, _⟩ => rfl
  rw [h, v5_at]
  rfl

theorem v9_at (p : Vec Ideal S4096x512 .f32) (b : Fin 4096) :
    val_main_v9 (F := Ideal) p (ix1 b) = ∑ d : Fin 512, p (ix2 b d) * p (ix2 b d) := by
  rw [val_main_v9_apply, val_main_cst_1_apply, Ideal.ofBits_def, Ideal.ofBits_zero_f32, zero_add]
  refine Finset.sum_congr rfl fun d _ => ?_
  have h : idx_main_v9 (ix1 b) d = ix2 b d := by
    funext t; match t with | ⟨0, _⟩ => rfl | ⟨1, _⟩ => rfl
  rw [h, val_main_v8_apply]
  rfl

theorem v13_at (p : Vec Ideal S4096x512 .f32) (b : Fin 4096) (z : Fin 1) :
    val_main_v13 (F := Ideal) p (ix2 b z) = den (rowOf p b) := by
  rw [val_main_v13_apply, val_main_v11_apply, val_main_v10_apply, val_main_v12_apply, val_main_cst_2_apply]
  have h : idx_main_v10 (ix2 b z) = ix1 b := by
    funext t; match t with | ⟨0, _⟩ => rfl
  rw [h, v9_at]
  rfl

theorem v15_at (p : Vec Ideal S4096x512 .f32) (b : Fin 4096) (d : Fin 512) :
    val_main_v15 (F := Ideal) p (ix2 b d) = nrm (rowOf p b) d := by
  rw [val_main_v15_apply, val_main_v14_apply]
  have h : idx_main_v14 (ix2 b d) = ix2 b (0 : Fin 1) := by
    funext t; match t with | ⟨0, _⟩ => rfl | ⟨1, _⟩ => rfl
  rw [h, v13_at]
  rfl

theorem v17_at (w : Vec Ideal S3x4096x512 .f32) (v : Fin 3) (k : Fin 4096) :
    val_main_v17 (F := Ideal) w (ix2 v k) = ∑ d : Fin 512, w (ix3 v k d) * w (ix3 v k d) := by
  rw [val_main_v17_apply, val_main_cst_3_apply, Ideal.ofBits_def, Ideal.ofBits_zero_f32, zero_add]
  refine Finset.sum_congr rfl fun d _ => ?_
  have h : idx_main_v17 (ix2 v k) d = ix3 v k d := by
    funext t; match t with | ⟨0, _⟩ => rfl | ⟨1, _⟩ => rfl | ⟨2, _⟩ => rfl
  rw [h, val_main_v16_apply]
  rfl

theorem v21_at (w : Vec Ideal S3x4096x512 .f32) (v : Fin 3) (k : Fin 4096) (z : Fin 1) :
    val_main_v21 (F := Ideal) w (ix3 v k z) = den (rowOf3 w v k) := by
  rw [val_main_v21_apply, val_main_v19_apply, val_main_v18_apply, val_main_v20_apply, val_main_cst_4_apply]
  have h : idx_main_v18 (ix3 v k z) = ix2 v k := by
    funext t; match t with | ⟨0, _⟩ => rfl | ⟨1, _⟩ => rfl
  rw [h, v17_at]
  rfl

theorem v23_at (w : Vec Ideal S3x4096x512 .f32) (v : Fin 3) (k : Fin 4096) (d : Fin 512) :
    val_main_v23 (F := Ideal) w (ix3 v k d) = nrm (rowOf3 w v k) d := by
  rw [val_main_v23_apply, val_main_v22_apply]
  have h : idx_main_v22 (ix3 v k d) = ix3 v k (0 : Fin 1) := by
    funext t; match t with | ⟨0, _⟩ => rfl | ⟨1, _⟩ => rfl | ⟨2, _⟩ => rfl
  rw [h, v21_at]
  rfl

/-! ## The positive terms -/

theorem v25_at (a p : Vec Ideal S4096x512 .f32) (b : Fin 4096) :
    val_main_v25 (F := Ideal) a p (ix1 b) = dotn (rowOf a b) (rowOf p b) := by
  rw [val_main_v25_apply, val_main_cst_5_apply, Ideal.ofBits_def, Ideal.ofBits_zero_f32, zero_add]
  refine Finset.sum_congr rfl fun d _ => ?_
  have h : idx_main_v25 (ix1 b) d = ix2 b d := by
    funext t; match t with | ⟨0, _⟩ => rfl | ⟨1, _⟩ => rfl
  rw [h, val_main_v24_apply, v7_at, v15_at]
  rfl

theorem v36_at (a p : Vec Ideal S4096x512 .f32) (b : Fin 4096) :
    val_main_v36 (F := Ideal) a p (ix1 b) = posE (rowOf a b) (rowOf p b) := by
  rw [val_main_v36_apply, val_main_v35_apply, val_main_v34_apply, val_main_cst_7_apply, v25_at]
  rfl

/-! ## The negative terms -/

theorem v26_at (a : Vec Ideal S4096x512 .f32) (w : Vec Ideal S3x4096x512 .f32) (b : Fin 4096) (v : Fin 3) (k : Fin 4096) :
    val_main_v26 (F := Ideal) a w (ix3 b v k) = ∑ d : Fin 512, nrm (rowOf a b) d * nrm (rowOf3 w v k) d := by
  rw [val_main_v26_apply]
  refine Finset.sum_congr rfl fun d _ => ?_
  have hl : lidx_main_v26 (ix3 b v k) d = ix2 b d := by
    funext t; match t with | ⟨0, _⟩ => rfl | ⟨1, _⟩ => rfl
  have hr : ridx_main_v26 (ix3 b v k) d = ix3 v k d := by
    funext t; match t with | ⟨0, _⟩ => rfl | ⟨1, _⟩ => rfl | ⟨2, _⟩ => rfl
  rw [hl, hr, v7_at, v23_at]

/-- Two row numbers below 4096 are equal exactly when their 32-bit words are. -/
theorem word_eq_iff (b k : Fin 4096) : BitVec.ofNat 32 b.val = BitVec.ofNat 32 k.val ↔ b.val = k.val := by
  constructor
  · intro h
    have h' := congrArg BitVec.toNat h
    simp only [BitVec.toNat_ofNat] at h'
    have hb := b.isLt
    have hk := k.isLt
    omega
  · intro h
    rw [h]

/-- The self-pair condition's bit. -/
theorem mask_bit (b k : Fin 4096) :
    IntOp.cmpi .eq (IntOp.addi (BitVec.ofNat 32 b.val) 0#32) (BitVec.ofNat 32 k.val) = if b.val = k.val then 1#1 else 0#1 := by
  unfold IntOp.cmpi IntOp.addi
  rw [BitVec.add_zero]
  by_cases h : b.val = k.val
  · rw [if_pos h, h]; simp
  · rw [if_neg h]
    have h' : BitVec.ofNat 32 b.val ≠ BitVec.ofNat 32 k.val := fun e => h ((word_eq_iff b k).mp e)
    rw [beq_eq_false_iff_ne.mpr h']
    rfl

theorem mask_at (b : Fin 4096) (v : Fin 3) (k : Fin 4096) :
    val_main_call0_v1 (F := Ideal) (ix3 b v k) = if b.val = k.val then 1#1 else 0#1 := by
  rw [val_main_call0_v1_apply, val_main_v32_apply, val_main_v31_apply, val_main_v30_apply, val_main_v27_apply,
    val_main_v28_apply, val_main_v29_apply, val_main_c_apply]
  exact mask_bit b k

theorem v39_at (a : Vec Ideal S4096x512 .f32) (w : Vec Ideal S3x4096x512 .f32) (b : Fin 4096) (v : Fin 3) (k : Fin 4096) :
    val_main_v39 (F := Ideal) a w (ix3 b v k) = negT (b.val = k.val) (nrm (rowOf a b)) (rowOf3 w v k) := by
  rw [val_main_v39_apply, val_main_v38_apply, val_main_v37_apply, val_main_cst_8_apply, val_main_v33_apply,
    val_main_call0_v2_apply, val_main_call0_v0_apply, val_main_cst_6_apply, mask_at, v26_at]
  unfold negT
  by_cases h : b.val = k.val
  · rw [if_pos h, if_pos h, select_one]; rfl
  · rw [if_neg h, if_neg h, select_zero]; rfl

/-- The sum over the view axis and the key axis of a [4096, 3, 4096] array, at row `b`: the initial value plus the
    double sum over the views and the keys. -/
theorem reduce_views_keys (x : S4096x3x4096.Idx → EReal) (init : EReal) (b : Fin 4096) :
    Ideal.hostReduceAdd reducesTo_S4096x3x4096_S4096_d1_2 x init (ix1 b)
      = init + ∑ v : Fin 3, ∑ k : Fin 4096, x (ix3 b v k) := by
  unfold Ideal.hostReduceAdd
  refine congrArg (init + ·) ?_
  rw [Finset.sum_filter, sum_idx3]
  have hd : ∀ (c : Fin 4096) (v : Fin 3) (k : Fin 4096),
      (reducesTo_S4096x3x4096_S4096_d1_2.drop (ix3 c v k) = ix1 b) ↔ c = b := by
    intro c v k
    have h0 : ((reducesTo_S4096x3x4096_S4096_d1_2.drop (ix3 c v k) 0 : Fin _) : ℕ) = c.val :=
      Shape.ReducesTo.drop_apply_val_of_eq reducesTo_S4096x3x4096_S4096_d1_2 (ix3 c v k) 0 0
    constructor
    · intro e
      refine Fin.ext ?_
      rw [← h0, e]
    · intro e
      funext t
      match t with
      | ⟨0, _⟩ => exact Fin.ext (h0.trans (congrArg Fin.val e))
  simp only [hd]
  rw [Finset.sum_eq_single b]
  · simp
  · intro c _ hc
    simp [hc]
  · simp

theorem v40_at (a : Vec Ideal S4096x512 .f32) (w : Vec Ideal S3x4096x512 .f32) (b : Fin 4096) :
    val_main_v40 (F := Ideal) a w (ix1 b) = neR a w b := by
  unfold val_main_v40
  simp only [Host.reduceAdd, Ideal.hostReduceAdd_def]
  rw [reduce_views_keys, val_main_cst_9_apply, Ideal.ofBits_def, Ideal.ofBits_zero_f32]
  unfold neR
  refine congrArg (0 + ·) (Finset.sum_congr rfl fun v _ => Finset.sum_congr rfl fun k _ => ?_)
  exact v39_at a w b v k

/-! ## The loss -/

theorem v45_at (a p : Vec Ideal S4096x512 .f32) (w : Vec Ideal S3x4096x512 .f32) (b : Fin 4096) :
    val_main_v45 (F := Ideal) a p w (ix1 b) = lossTerm (posE (rowOf a b) (rowOf p b)) (neR a w b) := by
  rw [val_main_v45_apply, val_main_v44_apply, val_main_v43_apply, val_main_v42_apply, val_main_cst_10_apply,
    val_main_v41_apply, v36_at, v40_at]
  rfl

theorem v48_at (a p : Vec Ideal S4096x512 .f32) (w : Vec Ideal S3x4096x512 .f32) (i : S_.Idx) :
    val_main_v48 (F := Ideal) a p w i = refLoss a p w := by
  rw [val_main_v48_apply, val_main_v47_apply, val_main_cst_12_apply, val_main_v46_apply, val_main_cst_11_apply,
    Ideal.ofBits_def, Ideal.ofBits_zero_f32, sum_idx1]
  simp only [v45_at]
  rfl

/-! ## The result -/

/-- The reference's composed term of the argument arrays is the row-level loss, at its one index. -/
theorem result_eq (a p : Vec Ideal S4096x512 .f32) (w : Vec Ideal S3x4096x512 .f32) :
    Host.negf (F := Ideal) (Host.divf (F := Ideal) (Host.reduceAdd (F := Ideal) (Host.log (F := Ideal) (Host.divf (F := Ideal) (Host.exp (F := Ideal) (Host.divf (F := Ideal) (Host.reduceAdd (F := Ideal) (mulf (F := Ideal) (Host.divf (F := Ideal) a (broadcastInDim S4096x512 ![0, 1] bcast_S4096x1_S4096x512_0_1 (maximumf (F := Ideal) (Host.sqrt (F := Ideal) (broadcastInDim S4096x1 ![0] bcast_S4096_S4096x1_0 (Host.reduceAdd (F := Ideal) (mulf (F := Ideal) a a) (constant (F := Ideal) S_ .f32 0x00000000#32) reducesTo_S4096x512_S4096_d1 h_S_))) (broadcastInDim S4096x1 ![] bcast_S_S4096x1 (constant (F := Ideal) S_ .f32 0x2B8CBCCC#32))))) (Host.divf (F := Ideal) p (broadcastInDim S4096x512 ![0, 1] bcast_S4096x1_S4096x512_0_1 (maximumf (F := Ideal) (Host.sqrt (F := Ideal) (broadcastInDim S4096x1 ![0] bcast_S4096_S4096x1_0 (Host.reduceAdd (F := Ideal) (mulf (F := Ideal) p p) (constant (F := Ideal) S_ .f32 0x00000000#32) reducesTo_S4096x512_S4096_d1 h_S_))) (broadcastInDim S4096x1 ![] bcast_S_S4096x1 (constant (F := Ideal) S_ .f32 0x2B8CBCCC#32)))))) (constant (F := Ideal) S_ .f32 0x00000000#32) reducesTo_S4096x512_S4096_d1 h_S_) (broadcastInDim S4096 ![] bcast_S_S4096 (constant (F := Ideal) S_ .f32 0x3E4CCCCD#32)))) (addf (F := Ideal) (addf (F := Ideal) (Host.exp (F := Ideal) (Host.divf (F := Ideal) (Host.reduceAdd (F := Ideal) (mulf (F := Ideal) (Host.divf (F := Ideal) a (broadcastInDim S4096x512 ![0, 1] bcast_S4096x1_S4096x512_0_1 (maximumf (F := Ideal) (Host.sqrt (F := Ideal) (broadcastInDim S4096x1 ![0] bcast_S4096_S4096x1_0 (Host.reduceAdd (F := Ideal) (mulf (F := Ideal) a a) (constant (F := Ideal) S_ .f32 0x00000000#32) reducesTo_S4096x512_S4096_d1 h_S_))) (broadcastInDim S4096x1 ![] bcast_S_S4096x1 (constant (F := Ideal) S_ .f32 0x2B8CBCCC#32))))) (Host.divf (F := Ideal) p (broadcastInDim S4096x512 ![0, 1] bcast_S4096x1_S4096x512_0_1 (maximumf (F := Ideal) (Host.sqrt (F := Ideal) (broadcastInDim S4096x1 ![0] bcast_S4096_S4096x1_0 (Host.reduceAdd (F := Ideal) (mulf (F := Ideal) p p) (constant (F := Ideal) S_ .f32 0x00000000#32) reducesTo_S4096x512_S4096_d1 h_S_))) (broadcastInDim S4096x1 ![] bcast_S_S4096x1 (constant (F := Ideal) S_ .f32 0x2B8CBCCC#32)))))) (constant (F := Ideal) S_ .f32 0x00000000#32) reducesTo_S4096x512_S4096_d1 h_S_) (broadcastInDim S4096 ![] bcast_S_S4096 (constant (F := Ideal) S_ .f32 0x3E4CCCCD#32)))) (Host.reduceAdd (F := Ideal) (Host.exp (F := Ideal) (Host.divf (F := Ideal) (select (broadcastInDim S4096x3x4096 ![0, 1, 2] bcast_S4096x1x4096_S4096x3x4096_0_1_2 (broadcastInDim S4096x1x4096 ![0, 2] bcast_S4096x4096_S4096x1x4096_0_2 (cmpi .eq (addi (iotaInDim S4096x4096 32 0) (broadcastInDim S4096x4096 ![] bcast_S_S4096x4096 (constantI S_ 32 0#32))) (iotaInDim S4096x4096 32 1)))) (broadcastInDim S4096x3x4096 ![] bcast_S_S4096x3x4096 (id (constant (F := Ideal) S_ .f32 0xCE6E6B28#32))) (Host.dotGeneral (F := Ideal) dot_S4096x512_S3x4096x512_S4096x3x4096_1_2_0_01_n_n none (Host.divf (F := Ideal) a (broadcastInDim S4096x512 ![0, 1] bcast_S4096x1_S4096x512_0_1 (maximumf (F := Ideal) (Host.sqrt (F := Ideal) (broadcastInDim S4096x1 ![0] bcast_S4096_S4096x1_0 (Host.reduceAdd (F := Ideal) (mulf (F := Ideal) a a) (constant (F := Ideal) S_ .f32 0x00000000#32) reducesTo_S4096x512_S4096_d1 h_S_))) (broadcastInDim S4096x1 ![] bcast_S_S4096x1 (constant (F := Ideal) S_ .f32 0x2B8CBCCC#32))))) (Host.divf (F := Ideal) w (broadcastInDim S3x4096x512 ![0, 1, 2] bcast_S3x4096x1_S3x4096x512_0_1_2 (maximumf (F := Ideal) (Host.sqrt (F := Ideal) (broadcastInDim S3x4096x1 ![0, 1] bcast_S3x4096_S3x4096x1_0_1 (Host.reduceAdd (F := Ideal) (mulf (F := Ideal) w w) (constant (F := Ideal) S_ .f32 0x00000000#32) reducesTo_S3x4096x512_S3x4096_d2 h_S_))) (broadcastInDim S3x4096x1 ![] bcast_S_S3x4096x1 (constant (F := Ideal) S_ .f32 0x2B8CBCCC#32))))))) (broadcastInDim S4096x3x4096 ![] bcast_S_S4096x3x4096 (constant (F := Ideal) S_ .f32 0x3E4CCCCD#32)))) (constant (F := Ideal) S_ .f32 0x00000000#32) reducesTo_S4096x3x4096_S4096_d1_2 h_S_)) (broadcastInDim S4096 ![] bcast_S_S4096 (constant (F := Ideal) S_ .f32 0x322BCC77#32))))) (constant (F := Ideal) S_ .f32 0x00000000#32) reducesTo_S4096_S_d0 h_S_) (constant (F := Ideal) S_ .f32 0x45800000#32))
      = fun _ => refLoss a p w :=
  (val_main_v48_eq (F := Ideal) a p w).trans (funext fun i => v48_at a p w i)

/-- On every device, from any memory with zero counters: every weakly fair execution of the reference terminates with
    its result the row-level loss of the argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = (fun _ => refLoss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _), (h c).2⟩)
    (Cert.ReferenceIdeal.Value.run (F := Ideal) m ρ)

end Cert.ReferenceIdeal.RefValue

end
-- ==== Proof.Bridge.lean ====
/-
  The kernel's tile-by-tile accumulation and the reference's sum over views and keys are one sum.
-/
import proofs.«110455_j16295105921245_1_alg».proof.Proof.RowSpec
import Idealize.ShloMosaic.Lib.ValueIdx
import Mathlib.Algebra.BigOperators.Fin
import Mathlib.Logic.Equiv.Fin.Basic

noncomputable section

namespace Cert.RowSpec

open Idealize.ShloMosaic Idealize.ShloMosaic.ValueIdx
open scoped BigOperators

/-- The accumulation from zero is the sum of the tiles. -/
theorem accF_eq_sum (s : ℕ → EReal) (j : ℕ) : accF s j = ∑ j' ∈ Finset.range (j + 1), s j' := by
  induction j with
  | zero => simp [accF]
  | succ j ih => rw [accF, ih, Finset.sum_range_succ _ (j + 1)]

/-- A sum over `m n` consecutive places is the sum over `m` blocks of `n` places: place `i n + q` is place `q` of block `i`. -/
theorem sum_blocks (m n : ℕ) (G : Fin (m * n) → EReal) (hlt : ∀ (i : Fin m) (q : Fin n), i.val * n + q.val < m * n) :
    ∑ i : Fin m, ∑ q : Fin n, G ⟨i.val * n + q.val, hlt i q⟩ = ∑ x : Fin (m * n), G x := by
  rw [← Fintype.sum_prod_type']
  refine Fintype.sum_equiv finProdFinEquiv _ _ (fun x => congrArg G (Fin.ext ?_))
  show x.1.val * n + x.2.val = x.2.val + n * x.1.val
  rw [Nat.mul_comm, Nat.add_comm]

/-- Row b's negative sum: 24 tiles of 512 keys are 3 views of 4096 keys, when the flattened views are the views re-laid. -/
theorem neK_eq_neR (a : Vec Ideal ⟨2, ![4096, 512]⟩ .f32) (vf : Vec Ideal ⟨2, ![12288, 512]⟩ .f32)
    (w : Vec Ideal ⟨3, ![3, 4096, 512]⟩ .f32)
    (hvf : ∀ (n : Fin 12288) (d : Fin 512),
      vf (ix2 n d) = w (ix3 (⟨n.val / 4096, by omega⟩ : Fin 3) (⟨n.val % 4096, by omega⟩ : Fin 4096) d))
    (b : Fin 4096) : neK a vf (ix2 b (0 : Fin 1)) = neR a w b := by
  -- every key row of the flattened views, with the self pair at the key whose index within its view is b
  let G : Fin (12288) → EReal := fun n => negT (b.val = n.val % 4096) (nrm (rowOf a b)) (rowOf vf n)
  have hK : neK a vf (ix2 b (0 : Fin 1)) = ∑ n : Fin 12288, G n := by
    have h0 : neK a vf (ix2 b (0 : Fin 1)) = accF (tileSum a vf b) 23 := rfl
    rw [h0, accF_eq_sum, Finset.sum_range]
    refine Eq.trans ?_ (sum_blocks 24 512 G (fun i q => by omega))
    refine Finset.sum_congr rfl (fun j _ => ?_)
    unfold tileSum
    refine Finset.sum_congr rfl (fun q _ => ?_)
    have hj := j.isLt
    have hq := q.isLt
    have h1 : (j.val * 512 + q.val) % 12288 = j.val * 512 + q.val := Nat.mod_eq_of_lt (by omega)
    have h2 : (j.val % 8) * 512 + q.val = (j.val * 512 + q.val) % 4096 := by omega
    show negT (b.val = (j.val % 8) * 512 + q.val) (nrm (rowOf a b))
        (rowOf vf ⟨(j.val * 512 + q.val) % 12288, _⟩) = negT (b.val = (j.val * 512 + q.val) % 4096) (nrm (rowOf a b))
        (rowOf vf ⟨j.val * 512 + q.val, _⟩)
    rw [h2]
    congr 2
    exact Fin.ext h1
  have hR : neR a w b = ∑ n : Fin 12288, G n := by
    unfold neR
    rw [zero_add]
    refine Eq.trans ?_ (sum_blocks 3 4096 G (fun i q => by omega))
    refine Finset.sum_congr rfl (fun v _ => ?_)
    refine Finset.sum_congr rfl (fun k _ => ?_)
    have hv := v.isLt
    have hk := k.isLt
    have h1 : (v.val * 4096 + k.val) % 4096 = k.val := by omega
    have h2 : (v.val * 4096 + k.val) / 4096 = v.val := by omega
    show negT (b.val = k.val) (nrm (rowOf a b)) (rowOf3 w v k)
      = negT (b.val = (v.val * 4096 + k.val) % 4096) (nrm (rowOf a b)) (rowOf vf ⟨v.val * 4096 + k.val, _⟩)
    rw [h1]
    congr 1
    funext d
    show w (ix3 v k d) = vf (ix2 _ d)
    rw [hvf]
    congr 2
    · exact Fin.ext h2.symm
    · exact Fin.ext h1.symm
  rw [hK, hR]

/-- So the two programs' results agree. -/
theorem kerLoss_eq_refLoss (a p : Vec Ideal ⟨2, ![4096, 512]⟩ .f32) (vf : Vec Ideal ⟨2, ![12288, 512]⟩ .f32)
    (w : Vec Ideal ⟨3, ![3, 4096, 512]⟩ .f32)
    (hvf : ∀ (n : Fin 12288) (d : Fin 512),
      vf (ix2 n d) = w (ix3 (⟨n.val / 4096, by omega⟩ : Fin 3) (⟨n.val % 4096, by omega⟩ : Fin 4096) d)) :
    kerLoss a p vf = refLoss a p w := by
  unfold kerLoss refLoss
  have h1 : (fun b : Fin 4096 => neK a vf (ix2 b (0 : Fin 1))) = neR a w := funext (fun b => neK_eq_neR a vf w hvf b)
  have h2 : (fun b : Fin 4096 => peK a p (ix2 b (0 : Fin 1))) = fun b => posE (rowOf a b) (rowOf p b) := funext (fun b => rfl)
  rw [h1, h2]

end Cert.RowSpec

end
-- ==== Proof.lean ====
/-
  The five conjuncts.

  Both programs compute, on the extended reals, minus the mean over the 4096 rows of
  log (pos / (pos + neg + epsL)), with pos the exponential of the scaled inner product of the normalised anchor and
  positive rows, and neg the sum over all 3 * 4096 key rows of the exponentials of the scaled, self-masked inner
  products with the normalised key rows.  The kernel accumulates neg over 24 key tiles of 512 keys, from a zero
  accumulator, and leaves pos and neg in two result arrays that the host operations after the region turn into the
  loss; the reference sums over views and keys at once.  The two sums are one sum re-indexed (addition on the extended
  reals is commutative and associative), so the results agree at every input: no conjunct uses the precondition.

  The kernel's frame (at the word level and on the extended reals) is the pipeline's frame run over a proof datum that
  names what the two output windows hold point by point; the reference's frame is its run with the result dropped;
  the idealization's ledger is empty.
-/
import proofs.«110455_j16295105921245_1_alg».proof.Defs
import proofs.«110455_j16295105921245_1_alg».proof.Proof.Gen.Kernel
import proofs.«110455_j16295105921245_1_alg».proof.Proof.Gen.KernelIdeal
import proofs.«110455_j16295105921245_1_alg».proof.Proof.Gen.ReferenceIdeal
import proofs.«110455_j16295105921245_1_alg».proof.Proof.Gen.Pre_finite_inputs
import proofs.«110455_j16295105921245_1_alg».proof.Proof.Kernel.Body
import proofs.«110455_j16295105921245_1_alg».proof.Proof.KernelIdeal.Body
import proofs.«110455_j16295105921245_1_alg».proof.Proof.KernelIdeal.KState
import proofs.«110455_j16295105921245_1_alg».proof.Proof.KernelIdeal.KFinal
import proofs.«110455_j16295105921245_1_alg».proof.Proof.KernelIdeal.KTail
import proofs.«110455_j16295105921245_1_alg».proof.Proof.Reference.RefValue
import proofs.«110455_j16295105921245_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k [Cert.Kernel.Facts] [Cert.Pre_finite_inputs.Facts] : Cert.frame_Kernel :=
  fun m ρ _ => Cert.Kernel.Body.frame m ρ

/-- So does the kernel on the extended reals. -/
theorem frame_ki [Cert.KernelIdeal.Facts] [Cert.Pre_finite_inputs.Facts] : Cert.frame_KernelIdeal :=
  fun m ρ _ => Cert.KernelIdeal.Body.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefValue.run m ρ)

/-- The kernel program's result, on the extended reals: the loss of the argument arrays as the reference states it. -/
theorem kernel_result [Cert.KernelIdeal.Facts]
    (m : (ℓ : Loc Cert.KernelIdeal.nD Cert.KernelIdeal.τ Cert.KernelIdeal.sig) → Buf (Elt Ideal) ℓ) (c : Dev Cert.KernelIdeal.nD) :
    Pipeline.afterTail₀ Cert.KernelIdeal.cfgs (Cert.KernelIdeal.Body.dats m) 0 (Cert.KernelIdeal.Gen.V0 m) [Cert.KernelIdeal.Gen.hostOps1] c Cert.KernelIdeal.main_v9
      = fun _ => Cert.RowSpec.refLoss
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.KTail.tail_eq m c _ _ (Cert.KernelIdeal.KFinal.final3 m c) (Cert.KernelIdeal.KFinal.final4 m c)]
  funext _
  show Cert.RowSpec.kerLoss (Cert.KernelIdeal.KState.arrA m c) (Cert.KernelIdeal.KState.arrP m c) (Cert.KernelIdeal.KState.arrVf m c) = _
  rw [Cert.RowSpec.kerLoss_eq_refLoss _ _ _ _ (Cert.KernelIdeal.KState.arrVf_apply m c)]
  show Cert.RowSpec.refLoss (Cert.KernelIdeal.Gen.V m c Cert.KernelIdeal.main_arg0) (Cert.KernelIdeal.Gen.V m c Cert.KernelIdeal.main_arg1) _ = _
  rw [Cert.KernelIdeal.Gen.V_main_arg0 m c, Cert.KernelIdeal.Gen.V_main_arg1 m c]

/-- From memories agreeing on the arguments both programs end at the same loss. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.RowSpec.refLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Body.run_main m ρ)
    · exact ((h c).2 Cert.KernelIdeal.main_v9 (Pipeline.mem_restRefs_of Cert.KernelIdeal.main_v9 (by decide) (by decide))).trans
        (kernel_result m c)
    · exact ((h c).1 0).trans (((Cert.KernelIdeal.Body.dats m 0 c).arrAt_in 0 rfl _).trans
        ((Cert.KernelIdeal.Body.A_eq m c 0).trans (Cert.KernelIdeal.Gen.V_main_arg0 m c)))
    · exact ((h c).1 1).trans (((Cert.KernelIdeal.Body.dats m 0 c).arrAt_in 1 rfl _).trans
        ((Cert.KernelIdeal.Body.A_eq m c 1).trans (Cert.KernelIdeal.Gen.V_main_arg1 m c)))
    · exact ((h c).2 Cert.KernelIdeal.main_arg2 (Pipeline.mem_restRefs_of Cert.KernelIdeal.main_arg2 (by decide) (by decide))).trans
        (Cert.KernelIdeal.Gen.W_main_arg2 m (Cert.KernelIdeal.Body.dats m) c)
  · refine (θ_run Cert.ReferenceIdeal.defs _ _).mono (fun r h c => ⟨?_, (h c).2⟩) (Cert.ReferenceIdeal.RefValue.run m' ρ')
    rw [(h c).1, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
